-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x65536 : Shape := ⟨2, ![256, 65536]⟩
abbrev S_ : Shape := ⟨0, ![]⟩

class Facts : Prop where
  bcast_S_S256x65536 : S_.BroadcastsInDim S256x65536 (![] : Fin 0 → Fin S256x65536.rank)
  reducesTo_S256x65536_S_d0_1 : S256x65536.ReducesTo [0, 1] S_
  h_S_ : 0 < S_.numel

variable [Facts]

def fn {F : FTy → Type} [FloatOps F] (main_arg0 : FVec F S256x65536 .f32) (main_arg1 : FVec F S256x65536 .f32) (main_arg2 : IVec S256x65536 32) : IVec S_ 1 :=
  let main_v0 : FVec F S256x65536 .f32 := Host.absf main_arg0
  let main_cst : FVec F S_ .f32 := constant S_ .f32 0x7F800000#32
  let main_v1 : FVec F S256x65536 .f32 := broadcastInDim S256x65536 ![] bcast_S_S256x65536 main_cst
  let main_v2 : IVec S256x65536 1 := cmpf .olt main_v0 main_v1
  let main_c : IVec S_ 1 := constantI S_ 1 1#1
  let main_v3 : IVec S_ 1 := (fun x v => Host.reduce IntOp.andi x v reducesTo_S256x65536_S_d0_1 h_S_) main_v2 main_c
  let main_v4 : FVec F S256x65536 .f32 := Host.absf main_arg1
  let main_cst_0 : FVec F S_ .f32 := constant S_ .f32 0x7F800000#32
  let main_v5 : FVec F S256x65536 .f32 := broadcastInDim S256x65536 ![] bcast_S_S256x65536 main_cst_0
  let main_v6 : IVec S256x65536 1 := cmpf .olt main_v4 main_v5
  let main_c_1 : IVec S_ 1 := constantI S_ 1 1#1
  let main_v7 : IVec S_ 1 := (fun x v => Host.reduce IntOp.andi x v reducesTo_S256x65536_S_d0_1 h_S_) main_v6 main_c_1
  let main_v8 : IVec S_ 1 := andi main_v3 main_v7
  let main_c_2 : IVec S_ 32 := constantI S_ 32 0#32
  let main_v9 : IVec S256x65536 32 := broadcastInDim S256x65536 ![] bcast_S_S256x65536 main_c_2
  let main_v10 : IVec S256x65536 1 := cmpi .eq main_arg2 main_v9
  let main_c_3 : IVec S_ 32 := constantI S_ 32 1#32
  let main_v11 : IVec S256x65536 32 := broadcastInDim S256x65536 ![] bcast_S_S256x65536 main_c_3
  let main_v12 : IVec S256x65536 1 := cmpi .eq main_arg2 main_v11
  let main_v13 : IVec S256x65536 1 := ori main_v10 main_v12
  let main_c_4 : IVec S_ 1 := constantI S_ 1 1#1
  let main_v14 : IVec S_ 1 := (fun x v => Host.reduce IntOp.andi x v reducesTo_S256x65536_S_d0_1 h_S_) main_v13 main_c_4
  let main_v15 : IVec S_ 1 := andi main_v8 main_v14
  main_v15
-- ==== Kernel.lean ====
abbrev S256x65536 : Shape := ⟨2, ![256, 65536]⟩
abbrev S256x128 : Shape := ⟨2, ![256, 128]⟩
abbrev S32x16384 : Shape := ⟨2, ![32, 16384]⟩
abbrev S32x128 : Shape := ⟨2, ![32, 128]⟩
abbrev S32 : Shape := ⟨1, ![32]⟩
abbrev S32x1 : Shape := ⟨2, ![32, 1]⟩
abbrev S256x1 : Shape := ⟨2, ![256, 1]⟩
abbrev S256 : Shape := ⟨1, ![256]⟩
abbrev S_ : Shape := ⟨0, ![]⟩

abbrev nBuf : Space → Nat
  | .hbm => 47
  | .vmem => 9
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x65536, .i32⟩
  | .hbm, ⟨3, _⟩ => ⟨S256x128, .f32⟩
  | .hbm, ⟨4, _⟩ => ⟨S256x1, .f32⟩
  | .hbm, ⟨5, _⟩ => ⟨S256, .f32⟩
  | .hbm, ⟨6, _⟩ => ⟨S256x1, .f32⟩
  | .hbm, ⟨7, _⟩ => ⟨S256, .f32⟩
  | .hbm, ⟨8, _⟩ => ⟨S256x1, .f32⟩
  | .hbm, ⟨9, _⟩ => ⟨S256, .f32⟩
  | .hbm, ⟨10, _⟩ => ⟨S256x1, .f32⟩
  | .hbm, ⟨11, _⟩ => ⟨S256, .f32⟩
  | .hbm, ⟨12, _⟩ => ⟨S256x1, .f32⟩
  | .hbm, ⟨13, _⟩ => ⟨S256, .f32⟩
  | .hbm, ⟨14, _⟩ => ⟨S256x1, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x16384, .i32⟩
  | .local _ .vmem, ⟨5, _⟩ => ⟨S32x16384, .i32⟩
  | .local _ .vmem, ⟨6, _⟩ => ⟨S32x128, .f32⟩
  | .local _ .vmem, ⟨7, _⟩ => ⟨S32x128, .f32⟩
  | .local _ .vmem, ⟨8, _⟩ => ⟨S32x128, .f32⟩
  | _, _ => ⟨S256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v57 : BitVec 1 := Scalar.cmpi .eq arg1 c3_i32
  let v58 : BitVec 32 := Scalar.extui v57
  let c0_i32_30 : BitVec 32 := 0#32
  let v59 : BitVec 1 := Scalar.cmpi .ne v58 c0_i32_30
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x16384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x16384_S32x16384_0_0 : ∀ a, (![0, 0] : Fin 2 → Nat) a + S32x16384.size a ≤ S32x16384.size a
  h_S32x16384 : 0 < S32x16384.numel
  reduces_S32x16384_S32 : S32x16384.Reduces [1] S32
  inb_S32x128_S32x1_0_0 : ∀ a, (![0, 0] : Fin 2 → Nat) a + S32x1.size a ≤ S32x128.size a
  h_S32x1 : 0 < S32x1.numel
  shapeCasts_S32_S32x1 : S32.ShapeCasts S32x1
  shapeCasts_S32x1_S32x1 : S32x1.ShapeCasts S32x1
  inb_S32x128_S32x1_0_1 : ∀ a, (![0, 1] : Fin 2 → Nat) a + S32x1.size a ≤ S32x128.size a
  inb_S32x128_S32x1_0_2 : ∀ a, (![0, 2] : Fin 2 → Nat) a + S32x1.size a ≤ S32x128.size a
  inb_S32x128_S32x1_0_3 : ∀ a, (![0, 3] : Fin 2 → Nat) a + S32x1.size a ≤ S32x128.size a
  inb_S32x128_S32x1_0_4 : ∀ a, (![0, 4] : Fin 2 → Nat) a + S32x1.size a ≤ S32x128.size a
  inb_S32x128_S32x1_0_5 : ∀ a, (![0, 5] : Fin 2 → Nat) a + S32x1.size a ≤ S32x128.size a
  slices_S256x128_S256x1_0_0 : S256x128.Slices ![0, 0] S256x1
  shapeCasts_S256x1_S256 : S256x1.ShapeCasts S256
  slices_S256x128_S256x1_0_1 : S256x128.Slices ![0, 1] S256x1
  slices_S256x128_S256x1_0_2 : S256x128.Slices ![0, 2] S256x1
  slices_S256x128_S256x1_0_3 : S256x128.Slices ![0, 3] S256x1
  slices_S256x128_S256x1_0_4 : S256x128.Slices ![0, 4] S256x1
  slices_S256x128_S256x1_0_5 : S256x128.Slices ![0, 5] S256x1
  bcast_S_S256 : S_.BroadcastsInDim S256 (![] : Fin 0 → Fin S256.rank)
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S256x65536.size a
  hwx0_0 : ∀ i : grid0.Coords, EltTy.bits .f32 = 32 ∨ (Rect.block (s := S256x65536) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S256x65536.size a
  hwx0_1 : ∀ i : grid0.Coords, EltTy.bits .f32 = 32 ∨ (Rect.block (s := S256x65536) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16384.size a ≤ S256x65536.size a
  hwx0_2 : ∀ i : grid0.Coords, EltTy.bits .i32 = 32 ∨ (Rect.block (s := S256x65536) S32x16384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S256x128.size a
  hwx0_3 : ∀ i : grid0.Coords, EltTy.bits .f32 = 32 ∨ (Rect.block (s := S256x128) S32x128.size (cc0_transform_3 i) (hinb0_3 i)).WholeWords (EltTy.packing .f32)

variable [Facts₀]

abbrev win0_0 : Pipeline.Window sig grid0 :=
  Pipeline.Window.ofSpec (Memref.whole main_arg0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x65536 : Shape := ⟨2, ![256, 65536]⟩
abbrev S_ : Shape := ⟨0, ![]⟩
abbrev S256 : Shape := ⟨1, ![256]⟩
abbrev S256x1 : Shape := ⟨2, ![256, 1]⟩

abbrev nBuf : Space → Nat
  | .hbm => 51
  | .vmem => 0
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x65536, .i32⟩
  | .hbm, ⟨3, _⟩ => ⟨S256x65536, .f32⟩
  | .hbm, ⟨4, _⟩ => ⟨S_, .f32⟩
  | .hbm, ⟨5, _⟩ => ⟨S256, .f32⟩
  | .hbm, ⟨6, _⟩ => ⟨S256x65536, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S256x65536, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S256x65536, .f32⟩
  | .hbm, ⟨16, _⟩ => ⟨S256x65536, .f32⟩
  | .hbm, ⟨17, _⟩ => ⟨S256x65536, .f32⟩
  | .hbm, ⟨18, _⟩ => ⟨S256x1, .f32⟩
  | .hbm, ⟨19, _⟩ => ⟨S256x65536, .f32⟩
  | .hbm, ⟨20, _⟩ => ⟨S256x65536, .f32⟩
  | .hbm, ⟨21, _⟩ => ⟨S256x65536, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256x65536, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256x65536, .f32⟩
  | .hbm, ⟨30, _⟩ => ⟨S_, .f32⟩
  | .hbm, ⟨31, _⟩ => ⟨S256, .f32⟩
  | .hbm, ⟨32, _⟩ => ⟨S256, .f32⟩
  | .hbm, ⟨33, _⟩ => ⟨S256x65536, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  reducesTo_S256x65536_S256_d1 : S256x65536.ReducesTo [1] S256
  h_S_ : 0 < S_.numel
  bcast_S256_S256x1_0 : S256.BroadcastsInDim S256x1 (![0] : Fin 1 → Fin S256x1.rank)
  bcast_S256x1_S256x65536_0_1 : S256x1.BroadcastsInDim S256x65536 (![0, 1] : Fin 2 → Fin S256x65536.rank)
  bcast_S_S256 : S_.BroadcastsInDim S256 (![] : Fin 0 → Fin S256.rank)
  reducesTo_S256_S_d0 : S256.ReducesTo [0] S_

variable [Facts₀]

class Facts : Prop extends Facts₀ where

variable [Facts]
-- ==== Proof.MaskedMoments.lean ====
/-
  Masked second moments, centered and uncentered, on the extended reals.

  For finite samples `y t`, `y' t` and a mask `m t ∈ {0, 1}` write `L = ∑ m`, `S = ∑ y·m`, `S' = ∑ y'·m`,
  `μ = S / L`, `μ' = S' / L` (the quotient being the extended reals' total one, whatever it answers at `L = 0`).
  Then the masked sum of centered products is the one-pass expression:

      ∑ ((y - μ)·m)·((y' - μ')·m) = ∑ (y·y')·m - (L·μ)·μ'.

  When `L ≠ 0` everything is a real number and this is the textbook identity, using `m·m = m` and `S = μ·L`.
  When `L = 0` every `m t` is zero, so each summand on the left carries a factor `0` and so does every
  term on the right, whatever `μ` and `μ'` are: both sides are `0`.
-/
import Idealize.ShloMosaic.PureOps.Ideal

open scoped BigOperators

namespace Cert.MaskedMoments

open Idealize.ShloMosaic

/-- The summand of running statistic `j` at one sample pair `(a, b)` of mask weight `w`: statistic 0 counts the weight,
    1 and 2 sum the masked samples, 3 and 4 their masked squares, 5 the masked product; there is no seventh. -/
noncomputable def term (j : ℕ) (a b w : EReal) : EReal :=
  match j with
  | 0 => w
  | 1 => a * w
  | 2 => b * w
  | 3 => (a * a) * w
  | 4 => (b * b) * w
  | 5 => (a * b) * w
  | _ => 0

theorem term_of_ge {j : ℕ} (h : 6 ≤ j) (a b w : EReal) : term j a b w = 0 := by
  match j, h with
  | n + 6, _ => rfl

/-- A finite sum of real numbers, read in the extended reals, is the sum of the numbers read there. -/
theorem coe_sum {ι : Type*} (s : Finset ι) (f : ι → ℝ) : ((∑ t ∈ s, f t : ℝ) : EReal) = ∑ t ∈ s, (f t : EReal) := by
  classical
  refine Finset.induction_on s (by simp) fun a s ha ih => ?_
  rw [Finset.sum_insert ha, Finset.sum_insert ha, EReal.coe_add, ih]

/-- The textbook identity over the reals: with a 0/1 mask of nonzero count, the masked sum of centered products is
    the masked sum of products less `L·μ·μ'`. -/
theorem real_centered {ι : Type*} [Fintype ι] (y y' m : ι → ℝ) (hm : ∀ t, m t = 0 ∨ m t = 1)
    (hL : ∑ t, m t ≠ 0) :
    ∑ t, ((y t - (∑ s, y s * m s) * (1 / ∑ s, m s)) * m t) * ((y' t - (∑ s, y' s * m s) * (1 / ∑ s, m s)) * m t)
      = (∑ t, (y t * y' t) * m t)
        - ((∑ s, m s) * ((∑ s, y s * m s) * (1 / ∑ s, m s))) * ((∑ s, y' s * m s) * (1 / ∑ s, m s)) := by
  set L := ∑ s, m s with hLdef
  set S := ∑ s, y s * m s with hSdef
  set S' := ∑ s, y' s * m s with hS'def
  have key : ∀ t, ((y t - S * (1 / L)) * m t) * ((y' t - S' * (1 / L)) * m t)
      = (y t * y' t) * m t - (S' * (1 / L)) * (y t * m t) - (S * (1 / L)) * (y' t * m t)
        + (S * (1 / L)) * (S' * (1 / L)) * m t := by
    intro t
    rcases hm t with h | h <;> rw [h] <;> ring
  rw [Finset.sum_congr rfl (fun t _ => key t), Finset.sum_add_distrib, Finset.sum_sub_distrib,
    Finset.sum_sub_distrib, ← Finset.mul_sum, ← Finset.mul_sum, ← Finset.mul_sum, ← hLdef, ← hSdef, ← hS'def]
  field_simp
  ring

/-- THE IDENTITY on the extended reals, for finite samples and a 0/1 mask, at the extended reals' total quotient. -/
theorem centered_products {ι : Type*} [Fintype ι] (y y' m : ι → EReal)
    (hy : ∀ t, y t ≠ ⊤ ∧ y t ≠ ⊥) (hy' : ∀ t, y' t ≠ ⊤ ∧ y' t ≠ ⊥) (hm : ∀ t, m t = 0 ∨ m t = 1) :
    ∑ t, ((y t - Ideal.div (∑ s, y s * m s) (∑ s, m s)) * m t)
          * ((y' t - Ideal.div (∑ s, y' s * m s) (∑ s, m s)) * m t)
      = (∑ t, (y t * y' t) * m t)
        - ((∑ s, m s) * Ideal.div (∑ s, y s * m s) (∑ s, m s)) * Ideal.div (∑ s, y' s * m s) (∑ s, m s) := by
  classical
  -- real witnesses
  obtain ⟨yr, rfl⟩ : ∃ yr : ι → ℝ, y = fun t => (yr t : EReal) :=
    ⟨fun t => (y t).toReal, funext fun t => (EReal.coe_toReal (hy t).1 (hy t).2).symm⟩
  obtain ⟨yr', rfl⟩ : ∃ yr' : ι → ℝ, y' = fun t => (yr' t : EReal) :=
    ⟨fun t => (y' t).toReal, funext fun t => (EReal.coe_toReal (hy' t).1 (hy' t).2).symm⟩
  obtain ⟨mr, rfl⟩ : ∃ mr : ι → ℝ, m = fun t => (mr t : EReal) := by
    refine ⟨fun t => (m t).toReal, funext fun t => ?_⟩
    show m t = ((m t).toReal : EReal)
    rcases hm t with h | h <;> rw [h] <;> simp
  have hmr : ∀ t, mr t = 0 ∨ mr t = 1 := fun t => by
    rcases hm t with h | h
    · left; have h' : (mr t : EReal) = 0 := h; exact_mod_cast h'
    · right; have h' : (mr t : EReal) = 1 := h; exact_mod_cast h'
  simp only [← EReal.coe_mul, ← coe_sum]
  by_cases hL : ∑ s, mr s = 0
  · -- every mask entry is zero
    have hz : ∀ t, mr t = 0 := fun t =>
      (Finset.sum_eq_zero_iff_of_nonneg (fun s _ => by rcases hmr s with h | h <;> rw [h] <;> norm_num)).1 hL t
        (Finset.mem_univ t)
    have e1 : ∀ t, (((yr t : EReal) - Ideal.div ((∑ s, yr s * mr s : ℝ) : EReal) ((∑ s, mr s : ℝ) : EReal)) * ((mr t : ℝ) : EReal))
        * ((((yr' t : ℝ) : EReal) - Ideal.div ((∑ s, yr' s * mr s : ℝ) : EReal) ((∑ s, mr s : ℝ) : EReal)) * ((mr t : ℝ) : EReal)) = 0 := by
      intro t; rw [hz t, EReal.coe_zero, mul_zero, zero_mul]
    rw [Finset.sum_congr rfl (fun t _ => e1 t), Finset.sum_const_zero, hL, EReal.coe_zero, zero_mul, zero_mul]
    have e2 : (∑ t, (yr t * yr' t) * mr t : ℝ) = 0 :=
      Finset.sum_eq_zero fun t _ => by rw [hz t, mul_zero]
    rw [e2, EReal.coe_zero, sub_zero]
  · -- the count is a nonzero real: everything is real
    rw [Ideal.div_coe hL, Ideal.div_coe hL]
    simp only [← EReal.coe_mul, ← EReal.coe_sub, ← coe_sum]
    exact congrArg _ (real_centered yr yr' mr hmr hL)

end Cert.MaskedMoments
-- ==== Proof.LibColumnStores.lean ====
/-
  Column stores in a two-dimensional buffer, read at an index.

  A kernel that keeps several running statistics side by side in one [a, b] buffer updates it one [a, 1] column at a
  time. This file reads such a buffer back at an index (p, j'): the column rectangle at column `j` places its local
  index (p, u) at (p, j); so a store through it, last in a list of stores, is seen at (p, j') exactly when `j' = j` (there it
  is the payload at (p, 0)), and otherwise the earlier stores are seen. The same for a load through the column rectangle.
  Stated for the canonical contents of a list of stores (`View.canon`), for the contents read through a view
  (`View.read (View.writes …)`), and for what a load reads (`View.readCov`, `View.ld`).
-/
import Idealize.ShloMosaic.Lib.Pipeline.Value
import Idealize.ShloMosaic.Lib.ValueIdx

noncomputable section

namespace Idealize.ShloMosaic.ColumnStores

open Idealize.ShloMosaic Idealize.ShloMosaic.ValueIdx

variable {a b : ℕ} {e : EltTy} {Val : EltTy → Type}

/-- The [a, 1] rectangle at column `j` of an [a, b] buffer. -/
abbrev col (a b j : ℕ) (inb : ∀ ax, (![0, j] : Fin 2 → ℕ) ax + (![a, 1] : Fin 2 → ℕ) ax ≤ (⟨2, ![a, b]⟩ : Shape).size ax) :
    Rect (⟨2, ![a, b]⟩ : Shape) := Rect.unit ![0, j] ![a, 1] inb

/-- The column rectangle places its local index (p, u) at (p, j). -/
theorem col_emb (j : ℕ) (inb) (p : Fin a) (u : Fin 1) (j' : Fin b) (hj : j'.val = j) :
    (col a b j inb).emb (ix2 p u) = ix2 p j' := by
  funext ax; apply Fin.ext
  match ax with
  | ⟨0, _⟩ => show 0 + 1 * p.val = p.val; omega
  | ⟨1, _⟩ => show j + 1 * u.val = j'.val; have := u.isLt; omega

/-- An index of another column is not in the column rectangle. -/
theorem not_mem_col (j : ℕ) (inb) (p : Fin a) (j' : Fin b) (hj : j'.val ≠ j) : ix2 p j' ∉ (col a b j inb).set := by
  rw [Rect.mem_set_unit]
  intro h
  have h1 := h 1
  have h2 : j ≤ j'.val ∧ j'.val < j + 1 := h1
  omega

/-- A store through the column rectangle, last, is seen on its own column: its payload at the row. -/
theorem canon_cons_col_same [∀ e, Nonempty (Val e)] (j : ℕ) (inb) (w : (col a b j inb).shape.Idx → Val e)
    (L : List (View.Piece Val (⟨2, ![a, b]⟩ : Shape) e)) (p : Fin a) (j' : Fin b) (hj : j'.val = j) :
    View.canon (⟨col a b j inb, w⟩ :: L) (ix2 p j') = w (ix2 p (0 : Fin 1)) := by
  rw [← col_emb j inb p 0 j' hj]; exact View.canon_cons_emb _ w L _

/-- … and not on another column: there the earlier stores are seen. -/
theorem canon_cons_col_other [∀ e, Nonempty (Val e)] (j : ℕ) (inb) (w : (col a b j inb).shape.Idx → Val e)
    (L : List (View.Piece Val (⟨2, ![a, b]⟩ : Shape) e)) (p : Fin a) (j' : Fin b) (hj : j'.val ≠ j) :
    View.canon (⟨col a b j inb, w⟩ :: L) (ix2 p j') = View.canon L (ix2 p j') :=
  View.canon_cons_of_not_mem _ L (not_mem_col j inb p j' hj)

section Through

variable {sig : RefSig} {κ : Kind} {sp : Space} (v : View sig κ sp (⟨2, ![a, b]⟩ : Shape) e) (f : v.ty.Contents Val)

/-- The same through a view over any earlier contents: on its own column the last store's payload, -/
theorem read_writes_cons_col_same (j : ℕ) (inb) (w : (col a b j inb).shape.Idx → Val e)
    (L : List (View.Piece Val (⟨2, ![a, b]⟩ : Shape) e)) (p : Fin a) (j' : Fin b) (hj : j'.val = j) :
    v.read Val (v.writes Val f (⟨col a b j inb, w⟩ :: L)) (ix2 p j') = w (ix2 p (0 : Fin 1)) := by
  rw [← col_emb j inb p 0 j' hj]; exact View.read_writes_cons_emb v f _ w L _

/-- on another column what the earlier stores left. -/
theorem read_writes_cons_col_other (j : ℕ) (inb) (w : (col a b j inb).shape.Idx → Val e)
    (L : List (View.Piece Val (⟨2, ![a, b]⟩ : Shape) e)) (p : Fin a) (j' : Fin b) (hj : j'.val ≠ j) :
    v.read Val (v.writes Val f (⟨col a b j inb, w⟩ :: L)) (ix2 p j') = v.read Val (v.writes Val f L) (ix2 p j') := by
  rw [View.writes_cons]
  exact View.read_slice_write_of_not_mem _ _ _ _ (by rw [Rect.map_emb_univ]; exact not_mem_col j inb p j' hj)

/-- A load through the column rectangle after a list of stores reads their canonical contents on that column. -/
theorem readCov_col [∀ e, Nonempty (Val e)] (L : List (View.Piece Val (⟨2, ![a, b]⟩ : Shape) e)) (j : ℕ) (inb)
    (p : Fin a) (u : Fin 1) (j' : Fin b) (hj : j'.val = j) :
    v.readCov L (col a b j inb).toLoadRect (ix2 p u) = View.canon L (ix2 p j') := by
  rw [View.readCov_eq_canon']
  exact congrArg (View.canon L) (col_emb j inb p u j' hj)

end Through

/-- A load through the column rectangle of contents `X` reads `X` on that column. -/
theorem ld_col (X : (⟨2, ![a, b]⟩ : Shape).Idx → Val e) (j : ℕ) (inb) (p : Fin a) (u : Fin 1) (j' : Fin b)
    (hj : j'.val = j) : View.ld X (col a b j inb) (ix2 p u) = X (ix2 p j') :=
  congrArg X (col_emb j inb p u j' hj)

end Idealize.ShloMosaic.ColumnStores

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.ScratchUpdate.lean ====
/-
  What one grid point does to the running statistics, read at an index, at the ideal instance.

  The kernel keeps six running row statistics in columns 0 … 5 of a [32, 128] scratch: at each point it adds, into column
  `j` at row `p`, the sum over the point's 16384 lanes of statistic `j`'s summand (`MaskedMoments.term`) on that row of the
  point's three input blocks. A point at the start of a row block first zeroes the whole scratch; a point at the end of a
  row block copies the scratch to its output block after updating it. Columns 6 … 127 are only ever zeroed.
  So with `tileAdd` the point's addend at every (p, j) (zero for j ≥ 6), each case leaves `previous + tileAdd` (the first
  case over a zero scratch), which is what this file proves, case by case, walking the case's list of column stores.
-/
import proofs.«119938_j47562467836084_1_alg».proof.Proof.Gen.KernelIdeal.Frame
import proofs.«119938_j47562467836084_1_alg».proof.Proof.MaskedMoments
import proofs.«119938_j47562467836084_1_alg».proof.Proof.LibColumnStores
import proofs.«119938_j47562467836084_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Moments

open Idealize.ShloMosaic Idealize.ShloMosaic.TcCoe Idealize.ShloMosaic.Tactic Idealize.ShloMosaic.ValueIdx
open Idealize.ShloMosaic.ColumnStores
open Idealize.SL.Sem
open Cert.KernelIdeal Cert.KernelIdeal.Gen Cert.MaskedMoments
open scoped BigOperators

/-- The mask weight of one lane: the mask word read as a signed integer. -/
abbrev wt (x2 : IVec S32x16384 32) (p : Fin 32) (q : Fin 16384) : EReal := (((x2 (ix2 p q)).toInt : ℝ) : EReal)

/-- What one point adds to the running statistics: at (p, j) the sum over the point's lanes of statistic `j`'s summand on
    row `p` of its three blocks. -/
def tileAdd (x0 x1 : FVec Ideal S32x16384 .f32) (x2 : IVec S32x16384 32) : S32x128.Idx → EReal :=
  fun y => ∑ q : Fin 16384, term (y 1).val (x0 (ix2 (y 0) q)) (x1 (ix2 (y 0) q)) (wt x2 (y 0) q)

theorem tileAdd_apply (x0 x1 : FVec Ideal S32x16384 .f32) (x2 : IVec S32x16384 32) (p : Fin 32) (j : Fin 128) :
    tileAdd x0 x1 x2 (ix2 p j) = ∑ q : Fin 16384, term j.val (x0 (ix2 p q)) (x1 (ix2 p q)) (wt x2 p q) := rfl

/-! ## The payloads at an index -/

/-- A lane sum of a [32, 16384] block, at row `p`: the sum over the row's lanes. -/
theorem laneSum_apply (v : FVec Ideal S32x16384 .f32) (hφ) (hacc : (0x00000000#32 : BitVec 32) = 0x00000000#32) (p : Fin 32) :
    multiReduction (F := Ideal) .add [1] S32 v 0x00000000#32 reduces_S32x16384_S32 hφ hacc (ix1 p) = ∑ q : Fin 16384, v (ix2 p q) := by
  refine (Ideal.multiReduction_add_single v 0x00000000#32 reduces_S32x16384_S32 hφ hacc (ix1 p)).trans ?_
  exact Finset.sum_congr rfl fun q _ => congrArg v (by funext c; apply Fin.ext; fin_cases c <;> rfl)

/-- Every column update has one shape: the loaded column plus the row statistic recast as a column. At row `p` it is the
    loaded entry plus the statistic's entry. -/
theorem colUpdate_apply (stat : FVec Ideal S32 .f32) (prev : FVec Ideal S32x1 .f32) (p : Fin 32) :
    shapeCast S32x1 (addf prev (shapeCast S32x1 stat shapeCasts_S32_S32x1)) shapeCasts_S32x1_S32x1 (ix2 p (0 : Fin 1))
      = prev (ix2 p 0) + stat (ix1 p) := by
  rw [shapeCast_self]
  exact congrArg (prev (ix2 p 0) + ·) (Keepdims.shapeCast_a_a1_apply stat shapeCasts_S32_S32x1 p 0)

variable (x0 x1 : FVec Ideal S32x16384 .f32) (x2 : IVec S32x16384 32) (prev : FVec Ideal S32x1 .f32) (p : Fin 32)

theorem pay11_apply : k0_pay11 (F := Ideal) x2 prev (ix2 p (0 : Fin 1)) = prev (ix2 p 0) + ∑ q : Fin 16384, term 0 (x0 (ix2 p q)) (x1 (ix2 p q)) (wt x2 p q) := by
  unfold k0_pay11 k0_pay6
  refine (colUpdate_apply _ prev p).trans (congrArg (prev (ix2 p 0) + ·) ?_)
  exact laneSum_apply _ _ _ p

theorem pay12_apply : k0_pay12 (F := Ideal) x0 x2 prev (ix2 p (0 : Fin 1)) = prev (ix2 p 0) + ∑ q : Fin 16384, term 1 (x0 (ix2 p q)) (x1 (ix2 p q)) (wt x2 p q) := by
  unfold k0_pay12 k0_pay6
  refine (colUpdate_apply _ prev p).trans (congrArg (prev (ix2 p 0) + ·) ?_)
  exact laneSum_apply _ _ _ p

theorem pay1_apply : k0_pay1 (F := Ideal) (k0_pay7 x1 x2) prev (ix2 p (0 : Fin 1)) = prev (ix2 p 0) + ∑ q : Fin 16384, term 2 (x0 (ix2 p q)) (x1 (ix2 p q)) (wt x2 p q) := by
  unfold k0_pay1 k0_pay7 k0_pay6
  refine (colUpdate_apply _ prev p).trans (congrArg (prev (ix2 p 0) + ·) ?_)
  exact laneSum_apply _ _ _ p

theorem pay2_apply : k0_pay2 (F := Ideal) (k0_pay8 x0 x2) prev (ix2 p (0 : Fin 1)) = prev (ix2 p 0) + ∑ q : Fin 16384, term 3 (x0 (ix2 p q)) (x1 (ix2 p q)) (wt x2 p q) := by
  unfold k0_pay2 k0_pay8 k0_pay6
  refine (colUpdate_apply _ prev p).trans (congrArg (prev (ix2 p 0) + ·) ?_)
  exact laneSum_apply _ _ _ p

theorem pay3_apply : k0_pay3 (F := Ideal) (k0_pay9 x1 x2) prev (ix2 p (0 : Fin 1)) = prev (ix2 p 0) + ∑ q : Fin 16384, term 4 (x0 (ix2 p q)) (x1 (ix2 p q)) (wt x2 p q) := by
  unfold k0_pay3 k0_pay9 k0_pay6
  refine (colUpdate_apply _ prev p).trans (congrArg (prev (ix2 p 0) + ·) ?_)
  exact laneSum_apply _ _ _ p

theorem pay4_apply : k0_pay4 (F := Ideal) (k0_pay10 x0 x1 x2) prev (ix2 p (0 : Fin 1)) = prev (ix2 p 0) + ∑ q : Fin 16384, term 5 (x0 (ix2 p q)) (x1 (ix2 p q)) (wt x2 p q) := by
  unfold k0_pay4 k0_pay10 k0_pay6
  refine (colUpdate_apply _ prev p).trans (congrArg (prev (ix2 p 0) + ·) ?_)
  exact laneSum_apply _ _ _ p

theorem hz2 : (![0, 0] : Fin 2 → ℕ) = fun _ => 0 := by funext a; fin_cases a <;> rfl

/-- A point in the middle of a row block: every entry of the scratch gains the point's addend. -/
theorem scratch_B (c : Dev nD) (i : grid0.Coords) (arg2 : Memref sig .tc .vmem S32x16384 .f32) (harg2 : arg2.IsWhole) (arg3 : Memref sig .tc .vmem S32x16384 .f32) (harg3 : arg3.IsWhole) (arg4 : Memref sig .tc .vmem S32x16384 .i32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : ¬cond0_1 i)
    (xs0 : FVec Ideal S32x128 .f32) (j : Fin 128) :
    sout0_B_0 (F := Ideal) c i arg2 harg2 arg3 harg3 arg4 harg4 arg5 harg5 arg6 harg6 hc0 hc1 x0 x1 x2 xs0 (ix2 p j)
      = xs0 (ix2 p j) + tileAdd x0 x1 x2 (ix2 p j) := by
  unfold sout0_B_0 kernelRun0_B
  dsimp only
  sl_unfold_words
  simp only [View.readAt_eq_ld, harg2.read_unread, harg3.read_unread, harg4.read_unread, harg6.read_unread,
    View.ld_unit_zero (S := S32x16384) hz2]
  have hj : j.val = 0 ∨ j.val = 1 ∨ j.val = 2 ∨ j.val = 3 ∨ j.val = 4 ∨ j.val = 5 ∨ 6 ≤ j.val := by omega
  rw [tileAdd_apply]
  rcases hj with h | h | h | h | h | h | h
  · -- column 0
    refine (read_writes_cons_col_other _ _ 5 _ _ _ p j (by omega)).trans ?_
    refine (read_writes_cons_col_other _ _ 4 _ _ _ p j (by omega)).trans ?_
    refine (read_writes_cons_col_other _ _ 3 _ _ _ p j (by omega)).trans ?_
    refine (read_writes_cons_col_other _ _ 2 _ _ _ p j (by omega)).trans ?_
    refine (read_writes_cons_col_other _ _ 1 _ _ _ p j (by omega)).trans ?_
    refine (read_writes_cons_col_same _ _ 0 _ _ _ p j h).trans ?_
    rw [h]
    refine (pay11_apply x0 x1 x2 _ p).trans ?_
    exact congrArg (· + _) (ld_col (Val := Elt Ideal) (e := .f32) xs0 0 inb_S32x128_S32x1_0_0 p 0 j h)
  · -- column 1
    refine (read_writes_cons_col_other _ _ 5 _ _ _ p j (by omega)).trans ?_
    refine (read_writes_cons_col_other _ _ 4 _ _ _ p j (by omega)).trans ?_
    refine (read_writes_cons_col_other _ _ 3 _ _ _ p j (by omega)).trans ?_
    refine (read_writes_cons_col_other _ _ 2 _ _ _ p j (by omega)).trans ?_
    refine (read_writes_cons_col_same _ _ 1 _ _ _ p j h).trans ?_
    rw [h]
    refine (pay12_apply x0 x1 x2 _ p).trans ?_
    exact congrArg (· + _) (ld_col (Val := Elt Ideal) (e := .f32) xs0 1 inb_S32x128_S32x1_0_1 p 0 j h)
  · -- column 2
    refine (read_writes_cons_col_other _ _ 5 _ _ _ p j (by omega)).trans ?_
    refine (read_writes_cons_col_other _ _ 4 _ _ _ p j (by omega)).trans ?_
    refine (read_writes_cons_col_other _ _ 3 _ _ _ p j (by omega)).trans ?_
    refine (read_writes_cons_col_same _ _ 2 _ _ _ p j h).trans ?_
    rw [h]
    refine (pay1_apply x0 x1 x2 _ p).trans ?_
    exact congrArg (· + _) (ld_col (Val := Elt Ideal) (e := .f32) xs0 2 inb_S32x128_S32x1_0_2 p 0 j h)
  · -- column 3
    refine (read_writes_cons_col_other _ _ 5 _ _ _ p j (by omega)).trans ?_
    refine (read_writes_cons_col_other _ _ 4 _ _ _ p j (by omega)).trans ?_
    refine (read_writes_cons_col_same _ _ 3 _ _ _ p j h).trans ?_
    rw [h]
    refine (pay2_apply x0 x1 x2 _ p).trans ?_
    exact congrArg (· + _) (ld_col (Val := Elt Ideal) (e := .f32) xs0 3 inb_S32x128_S32x1_0_3 p 0 j h)
  · -- column 4
    refine (read_writes_cons_col_other _ _ 5 _ _ _ p j (by omega)).trans ?_
    refine (read_writes_cons_col_same _ _ 4 _ _ _ p j h).trans ?_
    rw [h]
    refine (pay3_apply x0 x1 x2 _ p).trans ?_
    exact congrArg (· + _) (ld_col (Val := Elt Ideal) (e := .f32) xs0 4 inb_S32x128_S32x1_0_4 p 0 j h)
  · -- column 5
    refine (read_writes_cons_col_same _ _ 5 _ _ _ p j h).trans ?_
    rw [h]
    refine (pay4_apply x0 x1 x2 _ p).trans ?_
    exact congrArg (· + _) (ld_col (Val := Elt Ideal) (e := .f32) xs0 5 inb_S32x128_S32x1_0_5 p 0 j h)
  · -- a column past the statistics: no store touches it, and its addend is zero
    refine (read_writes_cons_col_other _ _ 5 _ _ _ p j (by omega)).trans ?_
    refine (read_writes_cons_col_other _ _ 4 _ _ _ p j (by omega)).trans ?_
    refine (read_writes_cons_col_other _ _ 3 _ _ _ p j (by omega)).trans ?_
    refine (read_writes_cons_col_other _ _ 2 _ _ _ p j (by omega)).trans ?_
    refine (read_writes_cons_col_other _ _ 1 _ _ _ p j (by omega)).trans ?_
    refine (read_writes_cons_col_other _ _ 0 _ _ _ p j (by omega)).trans ?_
    rw [View.writes_nil, harg6.read_unread, Finset.sum_eq_zero (fun q _ => term_of_ge h _ _ _), add_zero]

/-- A point at the end of a row block leaves the scratch as a middle point does, -/
theorem scratch_C (c : Dev nD) (i : grid0.Coords) (arg2 : Memref sig .tc .vmem S32x16384 .f32) (harg2 : arg2.IsWhole) (arg3 : Memref sig .tc .vmem S32x16384 .f32) (harg3 : arg3.IsWhole) (arg4 : Memref sig .tc .vmem S32x16384 .i32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (xs0 : FVec Ideal S32x128 .f32) (j : Fin 128) :
    sout0_C_0 (F := Ideal) c i arg2 harg2 arg3 harg3 arg4 harg4 arg5 harg5 arg6 harg6 hc0 hc1 x0 x1 x2 xs0 (ix2 p j)
      = xs0 (ix2 p j) + tileAdd x0 x1 x2 (ix2 p j) := by
  unfold sout0_C_0 kernelRun0_C
  dsimp only
  sl_unfold_words
  simp only [View.readAt_eq_ld, harg2.read_unread, harg3.read_unread, harg4.read_unread, harg6.read_unread,
    View.ld_unit_zero (S := S32x16384) hz2]
  have hj : j.val = 0 ∨ j.val = 1 ∨ j.val = 2 ∨ j.val = 3 ∨ j.val = 4 ∨ j.val = 5 ∨ 6 ≤ j.val := by omega
  rw [tileAdd_apply]
  rcases hj with h | h | h | h | h | h | h
  · -- column 0
    refine (read_writes_cons_col_other _ _ 5 _ _ _ p j (by omega)).trans ?_
    refine (read_writes_cons_col_other _ _ 4 _ _ _ p j (by omega)).trans ?_
    refine (read_writes_cons_col_other _ _ 3 _ _ _ p j (by omega)).trans ?_
    refine (read_writes_cons_col_other _ _ 2 _ _ _ p j (by omega)).trans ?_
    refine (read_writes_cons_col_other _ _ 1 _ _ _ p j (by omega)).trans ?_
    refine (read_writes_cons_col_same _ _ 0 _ _ _ p j h).trans ?_
    rw [h]
    refine (pay11_apply x0 x1 x2 _ p).trans ?_
    exact congrArg (· + _) (ld_col (Val := Elt Ideal) (e := .f32) xs0 0 inb_S32x128_S32x1_0_0 p 0 j h)
  · -- column 1
    refine (read_writes_cons_col_other _ _ 5 _ _ _ p j (by omega)).trans ?_
    refine (read_writes_cons_col_other _ _ 4 _ _ _ p j (by omega)).trans ?_
    refine (read_writes_cons_col_other _ _ 3 _ _ _ p j (by omega)).trans ?_
    refine (read_writes_cons_col_other _ _ 2 _ _ _ p j (by omega)).trans ?_
    refine (read_writes_cons_col_same _ _ 1 _ _ _ p j h).trans ?_
    rw [h]
    refine (pay12_apply x0 x1 x2 _ p).trans ?_
    exact congrArg (· + _) (ld_col (Val := Elt Ideal) (e := .f32) xs0 1 inb_S32x128_S32x1_0_1 p 0 j h)
  · -- column 2
    refine (read_writes_cons_col_other _ _ 5 _ _ _ p j (by omega)).trans ?_
    refine (read_writes_cons_col_other _ _ 4 _ _ _ p j (by omega)).trans ?_
    refine (read_writes_cons_col_other _ _ 3 _ _ _ p j (by omega)).trans ?_
    refine (read_writes_cons_col_same _ _ 2 _ _ _ p j h).trans ?_
    rw [h]
    refine (pay1_apply x0 x1 x2 _ p).trans ?_
    exact congrArg (· + _) (ld_col (Val := Elt Ideal) (e := .f32) xs0 2 inb_S32x128_S32x1_0_2 p 0 j h)
  · -- column 3
    refine (read_writes_cons_col_other _ _ 5 _ _ _ p j (by omega)).trans ?_
    refine (read_writes_cons_col_other _ _ 4 _ _ _ p j (by omega)).trans ?_
    refine (read_writes_cons_col_same _ _ 3 _ _ _ p j h).trans ?_
    rw [h]
    refine (pay2_apply x0 x1 x2 _ p).trans ?_
    exact congrArg (· + _) (ld_col (Val := Elt Ideal) (e := .f32) xs0 3 inb_S32x128_S32x1_0_3 p 0 j h)
  · -- column 4
    refine (read_writes_cons_col_other _ _ 5 _ _ _ p j (by omega)).trans ?_
    refine (read_writes_cons_col_same _ _ 4 _ _ _ p j h).trans ?_
    rw [h]
    refine (pay3_apply x0 x1 x2 _ p).trans ?_
    exact congrArg (· + _) (ld_col (Val := Elt Ideal) (e := .f32) xs0 4 inb_S32x128_S32x1_0_4 p 0 j h)
  · -- column 5
    refine (read_writes_cons_col_same _ _ 5 _ _ _ p j h).trans ?_
    rw [h]
    refine (pay4_apply x0 x1 x2 _ p).trans ?_
    exact congrArg (· + _) (ld_col (Val := Elt Ideal) (e := .f32) xs0 5 inb_S32x128_S32x1_0_5 p 0 j h)
  · -- a column past the statistics: no store touches it, and its addend is zero
    refine (read_writes_cons_col_other _ _ 5 _ _ _ p j (by omega)).trans ?_
    refine (read_writes_cons_col_other _ _ 4 _ _ _ p j (by omega)).trans ?_
    refine (read_writes_cons_col_other _ _ 3 _ _ _ p j (by omega)).trans ?_
    refine (read_writes_cons_col_other _ _ 2 _ _ _ p j (by omega)).trans ?_
    refine (read_writes_cons_col_other _ _ 1 _ _ _ p j (by omega)).trans ?_
    refine (read_writes_cons_col_other _ _ 0 _ _ _ p j (by omega)).trans ?_
    rw [View.writes_nil, harg6.read_unread, Finset.sum_eq_zero (fun q _ => term_of_ge h _ _ _), add_zero]

/-- and its output block is that scratch, copied whole. -/
theorem out_C_eq (c : Dev nD) (i : grid0.Coords) (arg2 : Memref sig .tc .vmem S32x16384 .f32) (harg2 : arg2.IsWhole) (arg3 : Memref sig .tc .vmem S32x16384 .f32) (harg3 : arg3.IsWhole) (arg4 : Memref sig .tc .vmem S32x16384 .i32) (harg4 : arg4.IsWhole) (arg5 : Memref sig .tc .vmem S32x128 .f32) (harg5 : arg5.IsWhole) (arg6 : Memref sig .tc .vmem S32x128 .f32) (harg6 : arg6.IsWhole) (hc0 : ¬cond0_0 i) (hc1 : cond0_1 i)
    (xs0 : FVec Ideal S32x128 .f32) :
    out0_C_3 (F := Ideal) c i arg2 harg2 arg3 harg3 arg4 harg4 arg5 harg5 arg6 harg6 hc0 hc1 x0 x1 x2 xs0
      = sout0_C_0 (F := Ideal) c i arg2 harg2 arg3 harg3 arg4 harg4 arg5 harg5 arg6 harg6 hc0 hc1 x0 x1 x2 xs0 := by
  unfold out0_C_3
  rw [View.read_writes_junk_eq_canon]
  unfold sout0_C_0 kernelRun0_C
  dsimp only
  sl_unfold_words
  rw [View.canon_unit_zero hz2]
  simp only [View.readAt_eq_ld, View.ld_unit_zero (S := S32x128) hz2]

/-! ## The first point of a row block: the chain of stores over a zeroed scratch -/

section FirstPoint

variable (c : Dev nD) (arg2 : Memref sig .tc .vmem S32x16384 .f32) (harg2 : arg2.IsWhole) (arg3 : Memref sig .tc .vmem S32x16384 .f32) (harg3 : arg3.IsWhole) (arg4 : Memref sig .tc .vmem S32x16384 .i32) (harg4 : arg4.IsWhole) (arg6 : Memref sig .tc .vmem S32x128 .f32)

/-- The words the case's run names for the four row statistics it keeps in registers: the payloads at the loaded blocks. -/
theorem r_eq : kernelRun0_A.sl.r (F := Ideal) c arg3 harg3 arg4 harg4 x1 x2 = k0_pay7 x1 x2 := by
  unfold kernelRun0_A.sl.r
  simp only [View.readAt_eq_ld, harg3.read_unread, harg4.read_unread, View.ld_unit_zero (S := S32x16384) hz2]
theorem r1_eq : kernelRun0_A.sl.r_1 (F := Ideal) c arg2 harg2 arg4 harg4 x0 x2 = k0_pay8 x0 x2 := by
  unfold kernelRun0_A.sl.r_1
  simp only [View.readAt_eq_ld, harg2.read_unread, harg4.read_unread, View.ld_unit_zero (S := S32x16384) hz2]
theorem r2_eq : kernelRun0_A.sl.r_2 (F := Ideal) c arg3 harg3 arg4 harg4 x1 x2 = k0_pay9 x1 x2 := by
  unfold kernelRun0_A.sl.r_2
  simp only [View.readAt_eq_ld, harg3.read_unread, harg4.read_unread, View.ld_unit_zero (S := S32x16384) hz2]
theorem r3_eq : kernelRun0_A.sl.r_3 (F := Ideal) c arg2 harg2 arg3 harg3 arg4 harg4 x0 x1 x2 = k0_pay10 x0 x1 x2 := by
  unfold kernelRun0_A.sl.r_3
  simp only [View.readAt_eq_ld, harg2.read_unread, harg3.read_unread, harg4.read_unread, View.ld_unit_zero (S := S32x16384) hz2]

/-- After the zeroing store the scratch reads zero everywhere; -/
theorem z1 (j : Fin 128) : View.canon (kernelRun0_A.sl.HS0_1 (F := Ideal)) (ix2 p j) = 0 := by
  unfold kernelRun0_A.sl.HS0_1
  rw [View.canon_unit_zero hz2]
  unfold k0_pay5
  rw [shapeCast_self]
  exact Ideal.ofBits_zero_f32

/-- and each later column store leaves the columns after its own at zero. -/
theorem z2 (j : Fin 128) (h : 1 ≤ j.val) : View.canon (kernelRun0_A.sl.HS0_2 (F := Ideal) c arg4 harg4 arg6 x2) (ix2 p j) = 0 := by
  unfold kernelRun0_A.sl.HS0_2
  exact (canon_cons_col_other 0 _ _ _ p j (by omega)).trans (z1 p j)
theorem z3 (j : Fin 128) (h : 2 ≤ j.val) : View.canon (kernelRun0_A.sl.HS0_3 (F := Ideal) c arg2 harg2 arg4 harg4 arg6 x0 x2) (ix2 p j) = 0 := by
  unfold kernelRun0_A.sl.HS0_3
  exact (canon_cons_col_other 1 _ _ _ p j (by omega)).trans (z2 x2 p c arg4 harg4 arg6 j (by omega))
theorem z4 (j : Fin 128) (h : 3 ≤ j.val) : View.canon (kernelRun0_A.sl.HS0_4 (F := Ideal) c arg2 harg2 arg3 harg3 arg4 harg4 arg6 x0 x1 x2) (ix2 p j) = 0 := by
  unfold kernelRun0_A.sl.HS0_4
  exact (canon_cons_col_other 2 _ _ _ p j (by omega)).trans (z3 x0 x2 p c arg2 harg2 arg4 harg4 arg6 j (by omega))
theorem z5 (j : Fin 128) (h : 4 ≤ j.val) : View.canon (kernelRun0_A.sl.HS0_5 (F := Ideal) c arg2 harg2 arg3 harg3 arg4 harg4 arg6 x0 x1 x2) (ix2 p j) = 0 := by
  unfold kernelRun0_A.sl.HS0_5
  exact (canon_cons_col_other 3 _ _ _ p j (by omega)).trans (z4 x0 x1 x2 p c arg2 harg2 arg3 harg3 arg4 harg4 arg6 j (by omega))
theorem z6 (j : Fin 128) (h : 5 ≤ j.val) : View.canon (kernelRun0_A.sl.HS0_6 (F := Ideal) c arg2 harg2 arg3 harg3 arg4 harg4 arg6 x0 x1 x2) (ix2 p j) = 0 := by
  unfold kernelRun0_A.sl.HS0_6
  exact (canon_cons_col_other 4 _ _ _ p j (by omega)).trans (z5 x0 x1 x2 p c arg2 harg2 arg3 harg3 arg4 harg4 arg6 j (by omega))

end FirstPoint

/-- The first point of a row block: the scratch holds the point's addend, over a zeroed scratch. -/
theorem scratch_A (c : Dev nD) (i : grid0.Coords) (arg2 : Memref sig .tc .vmem S32x16384 .f32) (harg2 : arg2.IsWhole) (arg3 : Memref sig .tc .vmem S32x16384 .f32) (harg3 : arg3.IsWhole) (arg4 : Memref sig .tc .vmem S32x16384 .i32) (harg4 : arg4.IsWhole) (arg5 : Memref sig .tc .vmem S32x128 .f32) (harg5 : arg5.IsWhole) (arg6 : Memref sig .tc .vmem S32x128 .f32) (harg6 : arg6.IsWhole) (hc0 : cond0_0 i) (hc1 : ¬cond0_1 i)
    (j : Fin 128) :
    sout0_A_0 (F := Ideal) c i arg2 harg2 arg3 harg3 arg4 harg4 arg5 harg5 arg6 harg6 hc0 hc1 x0 x1 x2 (ix2 p j)
      = tileAdd x0 x1 x2 (ix2 p j) := by
  unfold sout0_A_0
  rw [View.read_writes_junk_eq_canon]
  unfold kernelRun0_A
  dsimp only
  have hj : j.val = 0 ∨ j.val = 1 ∨ j.val = 2 ∨ j.val = 3 ∨ j.val = 4 ∨ j.val = 5 ∨ 6 ≤ j.val := by omega
  rw [tileAdd_apply]
  rcases hj with h | h | h | h | h | h | h
  · -- column 0
    refine (canon_cons_col_other 5 _ _ _ p j (by omega)).trans ?_
    unfold kernelRun0_A.sl.HS0_6
    refine (canon_cons_col_other 4 _ _ _ p j (by omega)).trans ?_
    unfold kernelRun0_A.sl.HS0_5
    refine (canon_cons_col_other 3 _ _ _ p j (by omega)).trans ?_
    unfold kernelRun0_A.sl.HS0_4
    refine (canon_cons_col_other 2 _ _ _ p j (by omega)).trans ?_
    unfold kernelRun0_A.sl.HS0_3
    refine (canon_cons_col_other 1 _ _ _ p j (by omega)).trans ?_
    unfold kernelRun0_A.sl.HS0_2
    refine (canon_cons_col_same 0 _ _ _ p j h).trans ?_
    simp only [View.readAt_eq_ld, harg4.read_unread, View.ld_unit_zero (S := S32x16384) hz2]
    rw [h]
    refine (pay11_apply x0 x1 x2 _ p).trans ?_
    unfold kernelRun0_A.sl.v21
    rw [readCov_col _ _ 0 _ p 0 j h, z1 p j, zero_add]
  · -- column 1
    refine (canon_cons_col_other 5 _ _ _ p j (by omega)).trans ?_
    unfold kernelRun0_A.sl.HS0_6
    refine (canon_cons_col_other 4 _ _ _ p j (by omega)).trans ?_
    unfold kernelRun0_A.sl.HS0_5
    refine (canon_cons_col_other 3 _ _ _ p j (by omega)).trans ?_
    unfold kernelRun0_A.sl.HS0_4
    refine (canon_cons_col_other 2 _ _ _ p j (by omega)).trans ?_
    unfold kernelRun0_A.sl.HS0_3
    refine (canon_cons_col_same 1 _ _ _ p j h).trans ?_
    simp only [View.readAt_eq_ld, harg2.read_unread, harg4.read_unread, View.ld_unit_zero (S := S32x16384) hz2]
    rw [h]
    refine (pay12_apply x0 x1 x2 _ p).trans ?_
    unfold kernelRun0_A.sl.v27
    rw [readCov_col _ _ 1 _ p 0 j h, z2 x2 p c arg4 harg4 arg6 j (by omega), zero_add]
  · -- column 2
    refine (canon_cons_col_other 5 _ _ _ p j (by omega)).trans ?_
    unfold kernelRun0_A.sl.HS0_6
    refine (canon_cons_col_other 4 _ _ _ p j (by omega)).trans ?_
    unfold kernelRun0_A.sl.HS0_5
    refine (canon_cons_col_other 3 _ _ _ p j (by omega)).trans ?_
    unfold kernelRun0_A.sl.HS0_4
    refine (canon_cons_col_same 2 _ _ _ p j h).trans ?_
    rw [r_eq x1 x2 c arg3 harg3 arg4 harg4, h]
    refine (pay1_apply x0 x1 x2 _ p).trans ?_
    unfold kernelRun0_A.sl.v33
    rw [readCov_col _ _ 2 _ p 0 j h, z3 x0 x2 p c arg2 harg2 arg4 harg4 arg6 j (by omega), zero_add]
  · -- column 3
    refine (canon_cons_col_other 5 _ _ _ p j (by omega)).trans ?_
    unfold kernelRun0_A.sl.HS0_6
    refine (canon_cons_col_other 4 _ _ _ p j (by omega)).trans ?_
    unfold kernelRun0_A.sl.HS0_5
    refine (canon_cons_col_same 3 _ _ _ p j h).trans ?_
    rw [r1_eq x0 x2 c arg2 harg2 arg4 harg4, h]
    refine (pay2_apply x0 x1 x2 _ p).trans ?_
    unfold kernelRun0_A.sl.v39
    rw [readCov_col _ _ 3 _ p 0 j h, z4 x0 x1 x2 p c arg2 harg2 arg3 harg3 arg4 harg4 arg6 j (by omega), zero_add]
  · -- column 4
    refine (canon_cons_col_other 5 _ _ _ p j (by omega)).trans ?_
    unfold kernelRun0_A.sl.HS0_6
    refine (canon_cons_col_same 4 _ _ _ p j h).trans ?_
    rw [r2_eq x1 x2 c arg3 harg3 arg4 harg4, h]
    refine (pay3_apply x0 x1 x2 _ p).trans ?_
    unfold kernelRun0_A.sl.v45
    rw [readCov_col _ _ 4 _ p 0 j h, z5 x0 x1 x2 p c arg2 harg2 arg3 harg3 arg4 harg4 arg6 j (by omega), zero_add]
  · -- column 5
    refine (canon_cons_col_same 5 _ _ _ p j h).trans ?_
    rw [r3_eq x0 x1 x2 c arg2 harg2 arg3 harg3 arg4 harg4, h]
    refine (pay4_apply x0 x1 x2 _ p).trans ?_
    unfold kernelRun0_A.sl.v51
    rw [readCov_col _ _ 5 _ p 0 j h, z6 x0 x1 x2 p c arg2 harg2 arg3 harg3 arg4 harg4 arg6 j (by omega), zero_add]
  · -- a column past the statistics: zeroed and never stored again; its addend is zero
    refine (canon_cons_col_other 5 _ _ _ p j (by omega)).trans ?_
    rw [z6 x0 x1 x2 p c arg2 harg2 arg3 harg3 arg4 harg4 arg6 j (by omega), Finset.sum_eq_zero (fun q _ => term_of_ge h _ _ _)]

end Cert.KernelIdeal.Moments

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.RowStats.lean ====
/-
  The statistics array the kernel's region leaves, as one function of the argument arrays.

  The grid is 8 row blocks by 4 column tiles, walked row block by row block. Point `t` reads rows `32·(t/4) … + 31`, lanes
  `16384·(t%4) … + 16383` of the three argument arrays. Over the four points of a row block the scratch accumulates the four
  tiles' addends from zero (`ScratchUpdate`), and the last of them writes the scratch to rows `32·(t/4) …` of the output.
  A row's four tile sums are the sum over all its 65536 lanes, so the output array holds, at row `r` and column `j`, the
  full-row sum of statistic `j`'s summand (zero for the columns past the sixth).
-/
import proofs.«119938_j47562467836084_1_alg».proof.Proof.ScratchUpdate
import proofs.«119938_j47562467836084_1_alg».proof.Proof.LibSumSplit

set_option maxRecDepth 16384

noncomputable section

namespace Cert.KernelIdeal.Moments

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.MaskedMoments
open scoped BigOperators

variable (m : (ℓ : Loc nD τ sig) → Buf (Elt Ideal) ℓ)

/-- The three argument arrays as the region finds them, and their blocks at a point, at their literal types. -/
abbrev Yt (c : Dev nD) : FVec Ideal S256x65536 .f32 := V m c main_arg0
abbrev Yp (c : Dev nD) : FVec Ideal S256x65536 .f32 := V m c main_arg1
abbrev Mk (c : Dev nD) : IVec S256x65536 32 := V m c main_arg2
abbrev yt (c : Dev nD) (t : Fin cfg0.N) : FVec Ideal S32x16384 .f32 := iblk m c 0 t
abbrev yp (c : Dev nD) (t : Fin cfg0.N) : FVec Ideal S32x16384 .f32 := iblk m c 1 t
abbrev mk (c : Dev nD) (t : Fin cfg0.N) : IVec S32x16384 32 := iblk m c 2 t

/-- The printed index maps over the grid: point `t` is column tile `t % 4` of row block `t / 4`. -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = 0 :=
  (by decide +kernel : ∀ t : Fin grid0.N, _)

section Blocks

variable (c : Dev nD) (t : Fin cfg0.N) (p : Fin 32) (q : Fin 16384) (r : Fin 256) (u : Fin 65536)
  (hr : r.val = 32 * (t.val / 4) + p.val) (hu : u.val = 16384 * (t.val % 4) + q.val)

include hr hu

/-- A block's entry is the array's entry at the block's row and lane offsets. -/
theorem yt_apply : yt m c t (ix2 p q) = Yt m c (ix2 r u) := by
  obtain ⟨e0, e1, -⟩ := idx_facts t
  show V m c main_arg0 (((cfg0.win 0).blk t).view.emb (ix2 p q)) = V m c main_arg0 (ix2 r u)
  refine congrArg _ (funext fun a => Fin.ext ?_)
  match a with
  | ⟨0, _⟩ => show win0_0.index t (0 : Fin 2) * 32 + 1 * p.val = r.val; omega
  | ⟨1, _⟩ => show win0_0.index t (1 : Fin 2) * 16384 + 1 * q.val = u.val; omega

theorem yp_apply : yp m c t (ix2 p q) = Yp m c (ix2 r u) := by
  obtain ⟨-, -, e0, e1, -⟩ := idx_facts t
  show V m c main_arg1 (((cfg0.win 1).blk t).view.emb (ix2 p q)) = V m c main_arg1 (ix2 r u)
  refine congrArg _ (funext fun a => Fin.ext ?_)
  match a with
  | ⟨0, _⟩ => show win0_1.index t (0 : Fin 2) * 32 + 1 * p.val = r.val; omega
  | ⟨1, _⟩ => show win0_1.index t (1 : Fin 2) * 16384 + 1 * q.val = u.val; omega

theorem mk_apply : mk m c t (ix2 p q) = Mk m c (ix2 r u) := by
  obtain ⟨-, -, -, -, e0, e1, -⟩ := idx_facts t
  show V m c main_arg2 (((cfg0.win 2).blk t).view.emb (ix2 p q)) = V m c main_arg2 (ix2 r u)
  refine congrArg _ (funext fun a => Fin.ext ?_)
  match a with
  | ⟨0, _⟩ => show win0_2.index t (0 : Fin 2) * 32 + 1 * p.val = r.val; omega
  | ⟨1, _⟩ => show win0_2.index t (1 : Fin 2) * 16384 + 1 * q.val = u.val; omega

end Blocks

/-! ## The scratch, point by point -/

section Steps

variable (c : Dev nD)

/-- What point `t` adds to the running statistics. -/
def addAt (t : Fin cfg0.N) : S32x128.Idx → EReal := tileAdd (yt m c t) (yp m c t) (mk m c t)

/-- At the first point of a row block the scratch holds that point's addend; -/
theorem scr_first (t : Fin cfg0.N) (h0 : t.val % 4 = 0) (p : Fin 32) (j : Fin 128) :
    (outsAt0 m c t.val t.isLt).2 (ix2 p j) = addAt m c t (ix2 p j) := by
  have h1 : ¬ t.val % 4 = 3 := by omega
  rw [outsAt0_A m c t h0 h1]
  dsimp only
  exact scratch_A (yt m c t) (yp m c t) (mk m c t) p c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => h1 ((hcond0_1 t).mp h)) j

/-- at every other point, what the point before left plus this point's addend; -/
theorem scr_step (t : Fin cfg0.N) (h0 : ¬ t.val % 4 = 0) (p : Fin 32) (j : Fin 128) :
    (outsAt0 m c t.val t.isLt).2 (ix2 p j)
      = (outsAt0 m c (t.val - 1) (Nat.lt_of_le_of_lt (Nat.sub_le _ _) t.isLt)).2 (ix2 p j) + addAt m c t (ix2 p j) := by
  by_cases h1 : t.val % 4 = 3
  · rw [outsAt0_C m c t h0 h1]
    dsimp only
    exact scratch_C (yt m c t) (yp m c t) (mk m c t) p c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1)
      ((outsAt0 m c (t.val - 1) (Nat.lt_of_le_of_lt (Nat.sub_le _ _) t.isLt)).2) j
  · rw [outsAt0_B m c t h0 h1]
    dsimp only
    exact scratch_B (yt m c t) (yp m c t) (mk m c t) p c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (fun h => h1 ((hcond0_1 t).mp h))
      ((outsAt0 m c (t.val - 1) (Nat.lt_of_le_of_lt (Nat.sub_le _ _) t.isLt)).2) j

/-- and the last point of a row block hands its output block that scratch. -/
theorem out_last (t : Fin cfg0.N) (h3 : t.val % 4 = 3) : (outsAt0 m c t.val t.isLt).1 = (outsAt0 m c t.val t.isLt).2 := by
  have h0 : ¬ t.val % 4 = 0 := by omega
  rw [outsAt0_C m c t h0 h3]
  dsimp only
  exact out_C_eq (yt m c t) (yp m c t) (mk m c t) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h3)
    ((outsAt0 m c (t.val - 1) (Nat.lt_of_le_of_lt (Nat.sub_le _ _) t.isLt)).2)

end Steps

/-! ## A row's statistic, whole and by tiles -/

section Rows

variable (X0 X1 : FVec Ideal S256x65536 .f32) (X2 : IVec S256x65536 32) (r : Fin 256) (j : ℕ)

/-- Statistic `j`'s summand at lane `u` of row `r`. -/
abbrev laneTerm (u : Fin 65536) : EReal := term j (X0 (ix2 r u)) (X1 (ix2 r u)) (((X2 (ix2 r u)).toInt : ℝ) : EReal)

/-- The row's full sum of statistic `j`. -/
def rowStat : EReal := ∑ u : Fin 65536, laneTerm X0 X1 X2 r j u

/-- The same over the lanes of tile `s`. -/
def tileStat (s : Fin 4) : EReal :=
  ∑ q : Fin 16384, laneTerm X0 X1 X2 r j ⟨16384 * s.val + q.val, Cert.SumSplit.lt_of_run (by norm_num : 4 * 16384 = 65536) s q⟩

/-- A row is its four tiles. -/
theorem rowStat_eq_tiles : rowStat X0 X1 X2 r j
    = tileStat X0 X1 X2 r j 0 + tileStat X0 X1 X2 r j 1 + tileStat X0 X1 X2 r j 2 + tileStat X0 X1 X2 r j 3 := by
  unfold rowStat
  rw [Cert.SumSplit.sum_split 4 16384 65536 (by norm_num) _, Fin.sum_univ_four]
  rfl

end Rows

section Flush

variable (c : Dev nD)

/-- A point's addend at (p, j) is tile `t % 4` of statistic `j` on row `32·(t/4) + p` of the arrays. -/
theorem addAt_eq (t : Fin cfg0.N) (p : Fin 32) (j : Fin 128) (r : Fin 256) (s : Fin 4)
    (hr : r.val = 32 * (t.val / 4) + p.val) (hs : s.val = t.val % 4) :
    addAt m c t (ix2 p j) = tileStat (Yt m c) (Yp m c) (Mk m c) r j.val s := by
  unfold addAt tileStat
  rw [tileAdd_apply]
  refine Finset.sum_congr rfl fun q _ => ?_
  have hu : (⟨16384 * s.val + q.val, Cert.SumSplit.lt_of_run (by norm_num : 4 * 16384 = 65536) s q⟩ : Fin 65536).val
      = 16384 * (t.val % 4) + q.val := by show 16384 * s.val + q.val = _; rw [hs]
  show term j.val (yt m c t (ix2 p q)) (yp m c t (ix2 p q)) (((mk m c t (ix2 p q)).toInt : ℝ) : EReal) = _
  rw [yt_apply m c t p q r _ hr hu, yp_apply m c t p q r _ hr hu, mk_apply m c t p q r _ hr hu]

/-- THE BLOCK a row block's last point writes: at (p, j) the full-row sum of statistic `j` on row `32·(t/4) + p`. -/
theorem out_flush (t : Fin cfg0.N) (h3 : t.val % 4 = 3) (p : Fin 32) (j : Fin 128) (r : Fin 256)
    (hr : r.val = 32 * (t.val / 4) + p.val) :
    (outsAt0 m c t.val t.isLt).1 (ix2 p j) = rowStat (Yt m c) (Yp m c) (Mk m c) r j.val := by
  have hN : cfg0.N = 32 := N_0
  have ht := t.isLt
  rw [out_last m c t h3, rowStat_eq_tiles]
  refine (scr_step m c t (by omega) p j).trans ?_
  refine congrArg₂ (· + ·) ?_ (addAt_eq m c t p j r 3 hr (by show 3 = t.val % 4; omega))
  refine (scr_step m c ⟨t.val - 1, by omega⟩ (by show ¬ (t.val - 1) % 4 = 0; omega) p j).trans ?_
  refine congrArg₂ (· + ·) ?_ (addAt_eq m c ⟨t.val - 1, by omega⟩ p j r 2
    (by show r.val = 32 * ((t.val - 1) / 4) + p.val; omega) (by show 2 = (t.val - 1) % 4; omega))
  refine (scr_step m c ⟨t.val - 1 - 1, by omega⟩ (by show ¬ (t.val - 1 - 1) % 4 = 0; omega) p j).trans ?_
  refine congrArg₂ (· + ·) ?_ (addAt_eq m c ⟨t.val - 1 - 1, by omega⟩ p j r 1
    (by show r.val = 32 * ((t.val - 1 - 1) / 4) + p.val; omega) (by show 1 = (t.val - 1 - 1) % 4; omega))
  refine (scr_first m c ⟨t.val - 1 - 1 - 1, by omega⟩ (by show (t.val - 1 - 1 - 1) % 4 = 0; omega) p j).trans ?_
  exact addAt_eq m c ⟨t.val - 1 - 1 - 1, by omega⟩ p j r 0
    (by show r.val = 32 * ((t.val - 1 - 1 - 1) / 4) + p.val; omega) (by show 0 = (t.val - 1 - 1 - 1) % 4; omega)

/-- The statistics array: at row `r`, column `j`, the full-row sum of statistic `j`. -/
def statsArr (X0 X1 : FVec Ideal S256x65536 .f32) (X2 : IVec S256x65536 32) : S256x128.Idx → EReal :=
  fun i => rowStat X0 X1 X2 ⟨(i 0).val, idx2_lt0 i⟩ (i 1).val

theorem statsArr_apply (X0 X1 : FVec Ideal S256x65536 .f32) (X2 : IVec S256x65536 32) (r : Fin 256) (j : Fin 128) :
    statsArr X0 X1 X2 (ix2 r j) = rowStat X0 X1 X2 r j.val := rfl

set_option maxRecDepth 131072 in
/-- What a flushing point writes back is its block of the statistics array. -/
theorem flushed_eq (t : Fin cfg0.N) (hf : (cfg0.win 3).flush t = true) :
    (dats m 0 c).flushed 3 t = ((cfg0.win 3).blk t).view.read (Elt Ideal) (statsArr (Yt m c) (Yp m c) (Mk m c)) := by
  have h3 : t.val % 4 = 3 := (flush0_3 t).mp hf
  have hN : cfg0.N = 32 := N_0
  have ht := t.isLt
  obtain ⟨-, -, -, -, -, -, e0, e1⟩ := idx_facts t
  show (cfg0.win 3).cut (grid0.coords t) ((dats m 0 c).after 3 t) = _
  rw [after0_3]
  funext y
  obtain ⟨p, j, rfl⟩ : ∃ (p : Fin 32) (j : Fin 128), y = ix2 p j := ⟨y 0, y 1, eq_ix2 y⟩
  show (outsAt0 m c t.val t.isLt).1 (ix2 p j)
    = statsArr (Yt m c) (Yp m c) (Mk m c) (((cfg0.win 3).blk t).view.emb (ix2 p j))
  refine (out_flush m c t h3 p j ⟨32 * (t.val / 4) + p.val, by omega⟩ rfl).trans ?_
  unfold statsArr
  congr 1
  · apply Fin.ext
    show 32 * (t.val / 4) + p.val = win0_3.index t (0 : Fin 2) * 32 + 1 * p.val
    omega
  · show j.val = win0_3.index t (1 : Fin 2) * 128 + 1 * j.val
    omega

/-- An index of the output array is in point `t`'s block iff each coordinate is in the block's range on its axis. -/
theorem mem_blk3 (t : Fin cfg0.N) (i : S256x128.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v0).slice (win0_3.rect t)).set ↔ _
  rw [View.set_slice_whole, Rect.mem_set_unit]
  exact Iff.rfl

/-- Every row lies in the block its row block's last point writes. -/
theorem cover (i : S256x128.Idx) : ∃ t : Fin cfg0.N, (cfg0.win 3).flush t = true ∧ i ∈ ((cfg0.win 3).blk t).view.set := by
  have hN : cfg0.N = 32 := N_0
  have hi0 : (i 0).val < 256 := idx2_lt0 i
  have hi1 : (i 1).val < 128 := idx2_lt1 i
  have hlt : 4 * ((i 0).val / 32) + 3 < cfg0.N := by omega
  obtain ⟨-, -, -, -, -, -, e0, e1⟩ := idx_facts ⟨4 * ((i 0).val / 32) + 3, hlt⟩
  have e0' : win0_3.index ⟨4 * ((i 0).val / 32) + 3, hlt⟩ (0 : Fin 2) = (4 * ((i 0).val / 32) + 3) / 4 := e0
  refine ⟨⟨4 * ((i 0).val / 32) + 3, hlt⟩, (flush0_3 _).mpr (by show (4 * ((i 0).val / 32) + 3) % 4 = 3; omega), ?_⟩
  rw [mem_blk3]
  intro a
  match a with
  | ⟨0, _⟩ =>
    show win0_3.index ⟨4 * ((i 0).val / 32) + 3, hlt⟩ (0 : Fin 2) * 32 ≤ (i 0).val
      ∧ (i 0).val < win0_3.index ⟨4 * ((i 0).val / 32) + 3, hlt⟩ (0 : Fin 2) * 32 + 32
    omega
  | ⟨1, _⟩ =>
    show win0_3.index ⟨4 * ((i 0).val / 32) + 3, hlt⟩ (1 : Fin 2) * 128 ≤ (i 1).val
      ∧ (i 1).val < win0_3.index ⟨4 * ((i 0).val / 32) + 3, hlt⟩ (1 : Fin 2) * 128 + 128
    omega

/-- THE OUTPUT ARRAY after the region: the statistics array of the argument arrays. -/
theorem final (c : Dev nD) : (dats m 0 c).arrAt 3 cfg0.N = statsArr (Yt m c) (Yp m c) (Mk m c) :=
  (dats m 0 c).arrAt_eq_of_cover 3 (statsArr (Yt m c) (Yp m c) (Mk m c)) (fun t hf => flushed_eq m c t hf) (cover)

end Flush

end Cert.KernelIdeal.Moments

end
-- ==== Proof.Epilogue.lean ====
/-
  The epilogue both programs end with.

  From six length-256 vectors — the row counts `L`, the two row means `μt`, `μp`, and the three centered second-moment
  numerators `nT`, `nP`, `nC` — both programs compute, row by row, the variances and the covariance over `L - 1`, the
  concordance ratio `2·cov / (var_t + var_p + (μt - μp)·2)`, and then its mean over the 256 rows. The two programs differ
  only in how they obtain the six vectors, so the epilogue is stated once and never opened.
-/
import Idealize.ShloMosaic.Lib.StableHlo
import Idealize.ShloMosaic.PureOps
import Idealize.ShloMosaic.PureOps.Ideal

noncomputable section

namespace Cert.MaskedMoments

open Idealize.ShloMosaic

/-- The mean over the rows of the concordance ratio, from the six row vectors. -/
def epilogue (hb : (⟨0, ![]⟩ : Shape).BroadcastsInDim (⟨1, ![256]⟩ : Shape) (![] : Fin 0 → Fin (⟨1, ![256]⟩ : Shape).rank))
    (hr : (⟨1, ![256]⟩ : Shape).ReducesTo [0] (⟨0, ![]⟩ : Shape)) (h0 : 0 < (⟨0, ![]⟩ : Shape).numel)
    (L μt μp nT nP nC : FVec Ideal (⟨1, ![256]⟩ : Shape) .f32) : FVec Ideal (⟨0, ![]⟩ : Shape) .f32 :=
  Host.divf (F := Ideal)
    (Host.reduceAdd (F := Ideal)
      (Host.divf (F := Ideal)
        (mulf (broadcastInDim (⟨1, ![256]⟩ : Shape) ![] hb (constant (F := Ideal) (⟨0, ![]⟩ : Shape) .f32 0x40000000#32))
          (Host.divf (F := Ideal) nC
            (subf L (broadcastInDim (⟨1, ![256]⟩ : Shape) ![] hb (constant (F := Ideal) (⟨0, ![]⟩ : Shape) .f32 0x3F800000#32)))))
        (addf
          (addf
            (Host.divf (F := Ideal) nT
              (subf L (broadcastInDim (⟨1, ![256]⟩ : Shape) ![] hb (constant (F := Ideal) (⟨0, ![]⟩ : Shape) .f32 0x3F800000#32))))
            (Host.divf (F := Ideal) nP
              (subf L (broadcastInDim (⟨1, ![256]⟩ : Shape) ![] hb (constant (F := Ideal) (⟨0, ![]⟩ : Shape) .f32 0x3F800000#32)))))
          (mulf (subf μt μp)
            (broadcastInDim (⟨1, ![256]⟩ : Shape) ![] hb (constant (F := Ideal) (⟨0, ![]⟩ : Shape) .f32 0x40000000#32)))))
      (constant (F := Ideal) (⟨0, ![]⟩ : Shape) .f32 0x00000000#32) hr h0)
    (constant (F := Ideal) (⟨0, ![]⟩ : Shape) .f32 0x43800000#32)

end Cert.MaskedMoments

end
-- ==== Proof.KernelTail.lean ====
/-
  The kernel's result, as the shared epilogue of the statistics array's columns.

  After the region the host reads the six statistics out of columns 0 … 5 of the statistics array (a slice and a reshape
  each), forms the two means as quotients by the count, the three numerators in one-pass form
  (`Σ y·y'·m − (L·μ)·μ'`), and ends with the shared epilogue.
-/
import proofs.«119938_j47562467836084_1_alg».proof.Proof.RowStats
import proofs.«119938_j47562467836084_1_alg».proof.Proof.Epilogue
import Idealize.ShloMosaic.Lib.StableHlo.Run

set_option maxRecDepth 16384

noncomputable section

namespace Cert.KernelIdeal.Moments

open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)
open Cert.KernelIdeal Cert.KernelIdeal.Gen Cert.MaskedMoments
open scoped BigOperators

variable (m : (ℓ : Loc nD τ sig) → Buf (Elt Ideal) ℓ) (ρ : Dev nD → PrngReg)

/-- Column `k` of a [256, 128] array as a length-256 vector: the host's slice and reshape. -/
def kcol (k : ℕ) (hs : S256x128.Slices ![0, k] S256x1) (A : FVec Ideal S256x128 .f32) : FVec Ideal S256 .f32 :=
  shapeCast S256 (extractStridedSlice S256x1 ![0, k] A hs) shapeCasts_S256x1_S256

/-- It reads the array on that column. -/
theorem kcol_apply (k : ℕ) (hs : S256x128.Slices ![0, k] S256x1) (A : FVec Ideal S256x128 .f32) (r : Fin 256) (k' : Fin 128)
    (hk : k'.val = k) : kcol k hs A (ix1 r) = A (ix2 r k') := by
  unfold kcol
  refine (shapeCast_apply _ shapeCasts_S256x1_S256 (ix1 r) (ix2 r (0 : Fin 1)) ?_).trans ?_
  · rw [Shape.rowMajor_val_two, Shape.rowMajor_val_one]
    show r.val * 1 + 0 = r.val
    omega
  · refine extractStridedSlice_apply _ A hs (ix2 r (0 : Fin 1)) (ix2 r k') fun a => ?_
    match a with
    | ⟨0, _⟩ => show r.val = 0 + r.val; omega
    | ⟨1, _⟩ => show k'.val = k + 0; omega

/-- The host tail applied to a statistics array `A`. -/
def kernelTail (A : FVec Ideal S256x128 .f32) : FVec Ideal S_ .f32 :=
  epilogue bcast_S_S256 reducesTo_S256_S_d0 h_S_
    (kcol 0 slices_S256x128_S256x1_0_0 A)
    (Host.divf (F := Ideal) (kcol 1 slices_S256x128_S256x1_0_1 A) (kcol 0 slices_S256x128_S256x1_0_0 A))
    (Host.divf (F := Ideal) (kcol 2 slices_S256x128_S256x1_0_2 A) (kcol 0 slices_S256x128_S256x1_0_0 A))
    (subf (kcol 3 slices_S256x128_S256x1_0_3 A)
      (mulf (mulf (kcol 0 slices_S256x128_S256x1_0_0 A)
          (Host.divf (F := Ideal) (kcol 1 slices_S256x128_S256x1_0_1 A) (kcol 0 slices_S256x128_S256x1_0_0 A)))
        (Host.divf (F := Ideal) (kcol 1 slices_S256x128_S256x1_0_1 A) (kcol 0 slices_S256x128_S256x1_0_0 A))))
    (subf (kcol 4 slices_S256x128_S256x1_0_4 A)
      (mulf (mulf (kcol 0 slices_S256x128_S256x1_0_0 A)
          (Host.divf (F := Ideal) (kcol 2 slices_S256x128_S256x1_0_2 A) (kcol 0 slices_S256x128_S256x1_0_0 A)))
        (Host.divf (F := Ideal) (kcol 2 slices_S256x128_S256x1_0_2 A) (kcol 0 slices_S256x128_S256x1_0_0 A))))
    (subf (kcol 5 slices_S256x128_S256x1_0_5 A)
      (mulf (mulf (kcol 0 slices_S256x128_S256x1_0_0 A)
          (Host.divf (F := Ideal) (kcol 1 slices_S256x128_S256x1_0_1 A) (kcol 0 slices_S256x128_S256x1_0_0 A)))
        (Host.divf (F := Ideal) (kcol 2 slices_S256x128_S256x1_0_2 A) (kcol 0 slices_S256x128_S256x1_0_0 A))))

set_option maxHeartbeats 4000000 in
/-- The host operations after the region, run on any buffer contents, leave the tail of the statistics buffer. -/
theorem tail_term (W : Valuation τ sig (Elt Ideal)) :
    StableHlo.after (hostOps1 (F := Ideal)) W (Proc.devRef .tc main_v38) = kernelTail (W (Proc.devRef .tc main_v0)) := by
  after_results
  rfl

end Cert.KernelIdeal.Moments

end
-- ==== Proof.KernelResult.lean ====
/-
  The kernel's run, read: its result is the host tail of the statistics array of its arguments.
-/
import proofs.«119938_j47562467836084_1_alg».proof.Proof.KernelTail

set_option maxRecDepth 16384

noncomputable section

namespace Cert.KernelIdeal.Moments

open Idealize.ShloMosaic Idealize.ShloMosaic.TcCoe Idealize.ShloMosaic.Tactic Idealize.ShloMosaic.ValueIdx
open Idealize.SL.Sem Idealize.ShloMosaic.StableHlo
open Idealize.ShloMosaic.Pipeline (Dat Cfg Window)
open Cert.KernelIdeal Cert.KernelIdeal.Gen Cert.MaskedMoments
open scoped BigOperators

variable (m : (ℓ : Loc nD τ sig) → Buf (Elt Ideal) ℓ) (ρ : Dev nD → PrngReg)

/-- The result buffer is none of the region's arrays. -/
theorem result_mem_rest : main_v38 ∈ Pipeline.restRefs sig (cfgs 0).spec :=
  Pipeline.mem_restRefs_of main_v38 rfl (fun w => by fin_cases w <;> decide)

/-- The lines after the region, run from the region's exit, leave the host tail of the statistics array. -/
theorem afterTail_eq (c : Dev nD) :
    Pipeline.afterTail₀ cfgs (dats m) 0 (V0 m) [hostOps1] c main_v38
      = kernelTail (statsArr (m ((c.tc : Thread nD τ).loc main_arg0)) (m ((c.tc : Thread nD τ).loc main_arg1))
          (m ((c.tc : Thread nD τ).loc main_arg2))) := by
  unfold Pipeline.afterTail₀
  simp only [List.flatten_cons, List.flatten_nil, List.append_nil]
  refine (tail_term _).trans (congrArg kernelTail ?_)
  exact (Pipeline.withArrays_arr spec0 launch0.win.arr_inj c _ _ 3).trans (final m c)

/-- THE KERNEL'S RUN: it terminates with its result at the host tail of the statistics array of its arguments, and the
    arguments unchanged. -/
theorem run : θ_run defs (onTc (τ := τ) (main (F := Ideal))) ⟨m, fun _ => 0, ρ⟩ (fun r => ∀ c : Dev nD,
      r.2.mem ((c.tc : Thread nD τ).loc main_v38)
        = kernelTail (statsArr (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v38 result_mem_rest).trans (afterTail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Moments

end
-- ==== Proof.ReferenceStats.lean ====
/-
  The reference's six row vectors, at a row.

  With `w u` the mask word of lane `u` read as a signed integer: the count `L = Σ w`; the means `μt = (Σ y_true·w) / L`,
  `μp = (Σ y_pred·w) / L`; and the three sums of centered products `Σ ((y − μ)·w)·((y' − μ')·w)`. The reference's result is the
  shared epilogue of these six.
-/
import proofs.«119938_j47562467836084_1_alg».proof.Proof.Gen.ReferenceIdeal.Read
import proofs.«119938_j47562467836084_1_alg».proof.Proof.Epilogue
import Idealize.ShloMosaic.Lib.ValueIdx

set_option maxRecDepth 65536

noncomputable section

namespace Cert.ReferenceIdeal.Moments

open Idealize.ShloMosaic Idealize.ShloMosaic.ValueIdx
open Cert.ReferenceIdeal Cert.ReferenceIdeal.Gen Cert.ReferenceIdeal.Read Cert.MaskedMoments
open scoped BigOperators

variable (x0 x1 : FVec Ideal S256x65536 .f32) (x2 : IVec S256x65536 32) (r : Fin 256)

/-- The mask weight of lane `u` of row `r`. -/
abbrev w (u : Fin 65536) : EReal := (((x2 (ix2 r u)).toInt : ℝ) : EReal)

/-! The printed index functions at a row: the reduced index `r` with lane `k` put back is (r, k); a row's mean, kept as a column
    and spread along the row, is read back at the row. -/
theorem idx_main_v1_row (k : Fin 65536) : idx_main_v1 (ix1 r) k = ix2 r k := by
  funext a; apply Fin.ext
  match a with
  | ⟨0, _⟩ => rfl
  | ⟨1, _⟩ => rfl
theorem idx_main_v3_row (k : Fin 65536) : idx_main_v3 (ix1 r) k = ix2 r k := by
  funext a; apply Fin.ext
  match a with
  | ⟨0, _⟩ => rfl
  | ⟨1, _⟩ => rfl
theorem idx_main_v6_row (k : Fin 65536) : idx_main_v6 (ix1 r) k = ix2 r k := by
  funext a; apply Fin.ext
  match a with
  | ⟨0, _⟩ => rfl
  | ⟨1, _⟩ => rfl
theorem idx_main_v19_row (k : Fin 65536) : idx_main_v19 (ix1 r) k = ix2 r k := by
  funext a; apply Fin.ext
  match a with
  | ⟨0, _⟩ => rfl
  | ⟨1, _⟩ => rfl
theorem idx_main_v22_row (k : Fin 65536) : idx_main_v22 (ix1 r) k = ix2 r k := by
  funext a; apply Fin.ext
  match a with
  | ⟨0, _⟩ => rfl
  | ⟨1, _⟩ => rfl
theorem idx_main_v25_row (k : Fin 65536) : idx_main_v25 (ix1 r) k = ix2 r k := by
  funext a; apply Fin.ext
  match a with
  | ⟨0, _⟩ => rfl
  | ⟨1, _⟩ => rfl
theorem idx_v8_v9 (k : Fin 65536) : idx_main_v8 (idx_main_v9 (ix2 r k)) = ix1 r := by
  funext a; apply Fin.ext
  match a with
  | ⟨0, _⟩ => rfl
theorem idx_v12_v13 (k : Fin 65536) : idx_main_v12 (idx_main_v13 (ix2 r k)) = ix1 r := by
  funext a; apply Fin.ext
  match a with
  | ⟨0, _⟩ => rfl

/-- The count. -/
theorem refL : val_main_v1 (F := Ideal) x2 (ix1 r) = ∑ u : Fin 65536, w x2 r u := by
  rw [val_main_v1_apply, val_main_cst_apply, Ideal.ofBits_def, Ideal.ofBits_zero_f32, zero_add]
  refine Finset.sum_congr rfl fun u _ => ?_
  rw [idx_main_v1_row, val_main_v0_apply]
  rfl

/-- The two masked sums. -/
theorem refSt : val_main_v3 (F := Ideal) x0 x2 (ix1 r) = ∑ u : Fin 65536, x0 (ix2 r u) * w x2 r u := by
  rw [val_main_v3_apply, val_main_cst_0_apply, Ideal.ofBits_def, Ideal.ofBits_zero_f32, zero_add]
  refine Finset.sum_congr rfl fun u _ => ?_
  rw [idx_main_v3_row, val_main_v2_apply, val_main_v0_apply]
  rfl

theorem refSp : val_main_v6 (F := Ideal) x1 x2 (ix1 r) = ∑ u : Fin 65536, x1 (ix2 r u) * w x2 r u := by
  rw [val_main_v6_apply, val_main_cst_1_apply, Ideal.ofBits_def, Ideal.ofBits_zero_f32, zero_add]
  refine Finset.sum_congr rfl fun u _ => ?_
  rw [idx_main_v6_row, val_main_v5_apply, val_main_v0_apply]
  rfl

/-- The two means. -/
theorem refMt : val_main_v4 (F := Ideal) x0 x2 (ix1 r)
    = Ideal.div (∑ u : Fin 65536, x0 (ix2 r u) * w x2 r u) (∑ u : Fin 65536, w x2 r u) := by
  rw [val_main_v4_apply]
  show Ideal.div (val_main_v3 (F := Ideal) x0 x2 (ix1 r)) (val_main_v1 (F := Ideal) x2 (ix1 r)) = _
  rw [refL, refSt]

theorem refMp : val_main_v7 (F := Ideal) x1 x2 (ix1 r)
    = Ideal.div (∑ u : Fin 65536, x1 (ix2 r u) * w x2 r u) (∑ u : Fin 65536, w x2 r u) := by
  rw [val_main_v7_apply]
  show Ideal.div (val_main_v6 (F := Ideal) x1 x2 (ix1 r)) (val_main_v1 (F := Ideal) x2 (ix1 r)) = _
  rw [refL, refSp]

/-- A centered, masked sample. -/
theorem dev_t (u : Fin 65536) : val_main_v11 (F := Ideal) x0 x2 (ix2 r u)
    = (x0 (ix2 r u) - val_main_v4 (F := Ideal) x0 x2 (ix1 r)) * w x2 r u := by
  rw [val_main_v11_apply, val_main_v10_apply, val_main_v9_apply, val_main_v8_apply, idx_v8_v9, val_main_v0_apply]
  rfl

theorem dev_p (u : Fin 65536) : val_main_v15 (F := Ideal) x1 x2 (ix2 r u)
    = (x1 (ix2 r u) - val_main_v7 (F := Ideal) x1 x2 (ix1 r)) * w x2 r u := by
  rw [val_main_v15_apply, val_main_v14_apply, val_main_v13_apply, val_main_v12_apply, idx_v12_v13, val_main_v0_apply]
  rfl

/-- The three sums of centered products. -/
theorem refNT : val_main_v19 (F := Ideal) x0 x2 (ix1 r)
    = ∑ u : Fin 65536, ((x0 (ix2 r u) - val_main_v4 (F := Ideal) x0 x2 (ix1 r)) * w x2 r u)
        * ((x0 (ix2 r u) - val_main_v4 (F := Ideal) x0 x2 (ix1 r)) * w x2 r u) := by
  rw [val_main_v19_apply, val_main_cst_3_apply, Ideal.ofBits_def, Ideal.ofBits_zero_f32, zero_add]
  refine Finset.sum_congr rfl fun u _ => ?_
  rw [idx_main_v19_row, val_main_v18_apply, dev_t]
  rfl

theorem refNP : val_main_v22 (F := Ideal) x1 x2 (ix1 r)
    = ∑ u : Fin 65536, ((x1 (ix2 r u) - val_main_v7 (F := Ideal) x1 x2 (ix1 r)) * w x2 r u)
        * ((x1 (ix2 r u) - val_main_v7 (F := Ideal) x1 x2 (ix1 r)) * w x2 r u) := by
  rw [val_main_v22_apply, val_main_cst_4_apply, Ideal.ofBits_def, Ideal.ofBits_zero_f32, zero_add]
  refine Finset.sum_congr rfl fun u _ => ?_
  rw [idx_main_v22_row, val_main_v21_apply, dev_p]
  rfl

theorem refNC : val_main_v25 (F := Ideal) x0 x1 x2 (ix1 r)
    = ∑ u : Fin 65536, ((x0 (ix2 r u) - val_main_v4 (F := Ideal) x0 x2 (ix1 r)) * w x2 r u)
        * ((x1 (ix2 r u) - val_main_v7 (F := Ideal) x1 x2 (ix1 r)) * w x2 r u) := by
  rw [val_main_v25_apply, val_main_cst_5_apply, Ideal.ofBits_def, Ideal.ofBits_zero_f32, zero_add]
  refine Finset.sum_congr rfl fun u _ => ?_
  rw [idx_main_v25_row, val_main_v24_apply, dev_t, dev_p]
  rfl

/-- The reference's result is the shared epilogue of its six row vectors. -/
theorem result_eq : val_main_v36 (F := Ideal) x0 x1 x2
    = epilogue bcast_S_S256 reducesTo_S256_S_d0 h_S_ (val_main_v1 (F := Ideal) x2) (val_main_v4 (F := Ideal) x0 x2)
        (val_main_v7 (F := Ideal) x1 x2) (val_main_v19 (F := Ideal) x0 x2) (val_main_v22 (F := Ideal) x1 x2)
        (val_main_v25 (F := Ideal) x0 x1 x2) := rfl

end Cert.ReferenceIdeal.Moments

end
-- ==== Proof.Bridge.lean ====
/-
  The two programs' six row vectors agree, hence their results.

  On finite samples and a 0/1 mask: the counts and the two means are the same sums; and each of the kernel's one-pass
  numerators `Σ y·y'·m − (L·μ)·μ'` is the reference's sum of centered products `Σ ((y − μ)·m)·((y' − μ')·m)`, by the
  identity of `MaskedMoments.centered_products` — whatever the quotient answers on a row whose mask is all zero.
-/
import proofs.«119938_j47562467836084_1_alg».proof.Proof.KernelTail
import proofs.«119938_j47562467836084_1_alg».proof.Proof.ReferenceStats
import proofs.«119938_j47562467836084_1_alg».proof.Proof.MaskedMoments
import Idealize.ShloMosaic.Lib.IdealHost

set_option maxRecDepth 65536

noncomputable section

namespace Cert.Concordance

open Idealize.ShloMosaic Idealize.ShloMosaic.ValueIdx Cert.MaskedMoments
open Cert.KernelIdeal.Moments (kcol kcol_apply kernelTail statsArr statsArr_apply rowStat laneTerm)
open Cert.ReferenceIdeal.Read Cert.ReferenceIdeal.Moments
open scoped BigOperators

variable (X0 X1 : FVec Ideal (⟨2, ![256, 65536]⟩ : Shape) .f32) (X2 : IVec (⟨2, ![256, 65536]⟩ : Shape) 32)

section Columns

variable (r : Fin 256)

/-- The kernel's six statistics of row `r`, as sums over the row's lanes. -/
theorem stat0 : (kcol 0 Cert.KernelIdeal.Gen.slices_S256x128_S256x1_0_0 (statsArr X0 X1 X2)) (ix1 r) = ∑ u : Fin 65536, w X2 r u := by
  rw [kcol_apply 0 _ _ r 0 rfl, statsArr_apply]; rfl
theorem stat1 : (kcol 1 Cert.KernelIdeal.Gen.slices_S256x128_S256x1_0_1 (statsArr X0 X1 X2)) (ix1 r) = ∑ u : Fin 65536, X0 (ix2 r u) * w X2 r u := by
  rw [kcol_apply 1 _ _ r 1 rfl, statsArr_apply]; rfl
theorem stat2 : (kcol 2 Cert.KernelIdeal.Gen.slices_S256x128_S256x1_0_2 (statsArr X0 X1 X2)) (ix1 r) = ∑ u : Fin 65536, X1 (ix2 r u) * w X2 r u := by
  rw [kcol_apply 2 _ _ r 2 rfl, statsArr_apply]; rfl
theorem stat3 : (kcol 3 Cert.KernelIdeal.Gen.slices_S256x128_S256x1_0_3 (statsArr X0 X1 X2)) (ix1 r) = ∑ u : Fin 65536, (X0 (ix2 r u) * X0 (ix2 r u)) * w X2 r u := by
  rw [kcol_apply 3 _ _ r 3 rfl, statsArr_apply]; rfl
theorem stat4 : (kcol 4 Cert.KernelIdeal.Gen.slices_S256x128_S256x1_0_4 (statsArr X0 X1 X2)) (ix1 r) = ∑ u : Fin 65536, (X1 (ix2 r u) * X1 (ix2 r u)) * w X2 r u := by
  rw [kcol_apply 4 _ _ r 4 rfl, statsArr_apply]; rfl
theorem stat5 : (kcol 5 Cert.KernelIdeal.Gen.slices_S256x128_S256x1_0_5 (statsArr X0 X1 X2)) (ix1 r) = ∑ u : Fin 65536, (X0 (ix2 r u) * X1 (ix2 r u)) * w X2 r u := by
  rw [kcol_apply 5 _ _ r 5 rfl, statsArr_apply]; rfl

end Columns

variable (h0 : ∀ i, X0 i ≠ ⊤ ∧ X0 i ≠ ⊥) (h1 : ∀ i, X1 i ≠ ⊤ ∧ X1 i ≠ ⊥) (h2 : ∀ i, X2 i = 0#32 ∨ X2 i = 1#32)

include h2 in
/-- A mask word that is 0 or 1 weighs 0 or 1. -/
theorem w01 (r : Fin 256) (u : Fin 65536) : w X2 r u = 0 ∨ w X2 r u = 1 := by
  rcases h2 (ix2 r u) with h | h
  · left
    show (((X2 (ix2 r u)).toInt : ℝ) : EReal) = 0
    rw [h]; simp
  · right
    show (((X2 (ix2 r u)).toInt : ℝ) : EReal) = 1
    have e : (1#32 : BitVec 32).toInt = 1 := by decide
    rw [h, e]; simp

/-- The counts agree; -/
theorem eL : (kcol 0 Cert.KernelIdeal.Gen.slices_S256x128_S256x1_0_0 (statsArr X0 X1 X2)) = val_main_v1 (F := Ideal) X2 := by
  funext i
  obtain ⟨r, rfl⟩ : ∃ r : Fin 256, i = ix1 r := ⟨i 0, eq_ix1 i⟩
  rw [stat0, refL]

/-- the means agree; -/
theorem eMt : (Host.divf (F := Ideal) (kcol 1 Cert.KernelIdeal.Gen.slices_S256x128_S256x1_0_1 (statsArr X0 X1 X2)) (kcol 0 Cert.KernelIdeal.Gen.slices_S256x128_S256x1_0_0 (statsArr X0 X1 X2))) = val_main_v4 (F := Ideal) X0 X2 := by
  funext i
  obtain ⟨r, rfl⟩ : ∃ r : Fin 256, i = ix1 r := ⟨i 0, eq_ix1 i⟩
  rw [hostDivf_apply, stat1, stat0, refMt]

theorem eMp : (Host.divf (F := Ideal) (kcol 2 Cert.KernelIdeal.Gen.slices_S256x128_S256x1_0_2 (statsArr X0 X1 X2)) (kcol 0 Cert.KernelIdeal.Gen.slices_S256x128_S256x1_0_0 (statsArr X0 X1 X2))) = val_main_v7 (F := Ideal) X1 X2 := by
  funext i
  obtain ⟨r, rfl⟩ : ∃ r : Fin 256, i = ix1 r := ⟨i 0, eq_ix1 i⟩
  rw [hostDivf_apply, stat2, stat0, refMp]

include h0 h2 in
/-- and each one-pass numerator is the reference's sum of centered products. -/
theorem eNT : subf (kcol 3 Cert.KernelIdeal.Gen.slices_S256x128_S256x1_0_3 (statsArr X0 X1 X2)) (mulf (mulf (kcol 0 Cert.KernelIdeal.Gen.slices_S256x128_S256x1_0_0 (statsArr X0 X1 X2)) (Host.divf (F := Ideal) (kcol 1 Cert.KernelIdeal.Gen.slices_S256x128_S256x1_0_1 (statsArr X0 X1 X2)) (kcol 0 Cert.KernelIdeal.Gen.slices_S256x128_S256x1_0_0 (statsArr X0 X1 X2)))) (Host.divf (F := Ideal) (kcol 1 Cert.KernelIdeal.Gen.slices_S256x128_S256x1_0_1 (statsArr X0 X1 X2)) (kcol 0 Cert.KernelIdeal.Gen.slices_S256x128_S256x1_0_0 (statsArr X0 X1 X2)))) = val_main_v19 (F := Ideal) X0 X2 := by
  funext i
  obtain ⟨r, rfl⟩ : ∃ r : Fin 256, i = ix1 r := ⟨i 0, eq_ix1 i⟩
  rw [subf_apply, mulf_apply, mulf_apply, hostDivf_apply, stat3, stat0, stat1, refNT, refMt]
  exact (centered_products (fun u => X0 (ix2 r u)) (fun u => X0 (ix2 r u)) (fun u => w X2 r u)
    (fun u => h0 _) (fun u => h0 _) (fun u => w01 X2 h2 r u)).symm

include h1 h2 in
theorem eNP : subf (kcol 4 Cert.KernelIdeal.Gen.slices_S256x128_S256x1_0_4 (statsArr X0 X1 X2)) (mulf (mulf (kcol 0 Cert.KernelIdeal.Gen.slices_S256x128_S256x1_0_0 (statsArr X0 X1 X2)) (Host.divf (F := Ideal) (kcol 2 Cert.KernelIdeal.Gen.slices_S256x128_S256x1_0_2 (statsArr X0 X1 X2)) (kcol 0 Cert.KernelIdeal.Gen.slices_S256x128_S256x1_0_0 (statsArr X0 X1 X2)))) (Host.divf (F := Ideal) (kcol 2 Cert.KernelIdeal.Gen.slices_S256x128_S256x1_0_2 (statsArr X0 X1 X2)) (kcol 0 Cert.KernelIdeal.Gen.slices_S256x128_S256x1_0_0 (statsArr X0 X1 X2)))) = val_main_v22 (F := Ideal) X1 X2 := by
  funext i
  obtain ⟨r, rfl⟩ : ∃ r : Fin 256, i = ix1 r := ⟨i 0, eq_ix1 i⟩
  rw [subf_apply, mulf_apply, mulf_apply, hostDivf_apply, stat4, stat0, stat2, refNP, refMp]
  exact (centered_products (fun u => X1 (ix2 r u)) (fun u => X1 (ix2 r u)) (fun u => w X2 r u)
    (fun u => h1 _) (fun u => h1 _) (fun u => w01 X2 h2 r u)).symm

include h0 h1 h2 in
theorem eNC : subf (kcol 5 Cert.KernelIdeal.Gen.slices_S256x128_S256x1_0_5 (statsArr X0 X1 X2)) (mulf (mulf (kcol 0 Cert.KernelIdeal.Gen.slices_S256x128_S256x1_0_0 (statsArr X0 X1 X2)) (Host.divf (F := Ideal) (kcol 1 Cert.KernelIdeal.Gen.slices_S256x128_S256x1_0_1 (statsArr X0 X1 X2)) (kcol 0 Cert.KernelIdeal.Gen.slices_S256x128_S256x1_0_0 (statsArr X0 X1 X2)))) (Host.divf (F := Ideal) (kcol 2 Cert.KernelIdeal.Gen.slices_S256x128_S256x1_0_2 (statsArr X0 X1 X2)) (kcol 0 Cert.KernelIdeal.Gen.slices_S256x128_S256x1_0_0 (statsArr X0 X1 X2)))) = val_main_v25 (F := Ideal) X0 X1 X2 := by
  funext i
  obtain ⟨r, rfl⟩ : ∃ r : Fin 256, i = ix1 r := ⟨i 0, eq_ix1 i⟩
  rw [subf_apply, mulf_apply, mulf_apply, hostDivf_apply, hostDivf_apply, stat5, stat0, stat1, stat2, refNC, refMt, refMp]
  exact (centered_products (fun u => X0 (ix2 r u)) (fun u => X1 (ix2 r u)) (fun u => w X2 r u)
    (fun u => h0 _) (fun u => h1 _) (fun u => w01 X2 h2 r u)).symm

include h0 h1 h2 in
/-- THE TWO RESULTS AGREE: the kernel's host tail of its statistics array is the reference's result. -/
theorem results_agree : kernelTail (statsArr X0 X1 X2) = val_main_v36 (F := Ideal) X0 X1 X2 := by
  rw [Cert.ReferenceIdeal.Moments.result_eq]
  unfold kernelTail
  rw [eNT X0 X1 X2 h0 h2, eNP X0 X1 X2 h1 h2, eNC X0 X1 X2 h0 h1 h2, eMt, eMp, eL]

end Cert.Concordance

end
-- ==== Proof.PreDecode.lean ====
/-
  The precondition read back: every sample is a real number, and every mask word is 0 or 1.

  The precondition is a conjunction of three `all`s over the arrays: `|y_true| < +∞`, `|y_pred| < +∞`, and
  `mask = 0 ∨ mask = 1`. An `all` that is true is true at every index; an extended real whose absolute value is below
  `+∞` is neither infinity; and an equality test of words that answers 1 says the words are equal.
-/
import proofs.«119938_j47562467836084_1_alg».proof.Pre_finite_inputs
import proofs.«119938_j47562467836084_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.Pre_finite_inputs.Decode

open Idealize.ShloMosaic Cert.Pre_finite_inputs Cert.Pre_finite_inputs.Gen

instance : Subsingleton S_.Idx := ⟨fun a b => funext fun d => d.elim0⟩

/-- An extended real whose absolute value is below `+∞` is a real number. -/
theorem finite_of_abs_lt (x : EReal)
    (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have hinf : Ideal.ofBits .f32 0x7F800000#32 = ⊤ := by simp [Ideal.ofBits, Ideal.ieee]
  rw [Ideal.hostAbsf_def, Ideal.absf_def, Ideal.ofBits_def, hinf, Ideal.cmpf_def] at h
  simp only [Ideal.cmp, StableHlo.Predicate.ofBool_eq_one_iff, decide_eq_true_eq] at h
  induction x using EReal.rec with
  | bot => simp at h
  | top => simp at h
  | coe r => exact ⟨EReal.coe_ne_top r, EReal.coe_ne_bot r⟩

/-- THE PRECONDITION, DECODED. -/
theorem decode (X0 X1 : FVec Ideal S256x65536 .f32) (X2 : IVec S256x65536 32)
    (h : Cert.Pre_finite_inputs.fn (F := Ideal) X0 X1 X2 = fun _ => 1#1) :
    (∀ i, X0 i ≠ ⊤ ∧ X0 i ≠ ⊥) ∧ (∀ i, X1 i ≠ ⊤ ∧ X1 i ≠ ⊥) ∧ (∀ i, X2 i = 0#32 ∨ X2 i = 1#32) := by
  have h0 := congrFun h ValueIdx.ix0
  dsimp only [Cert.Pre_finite_inputs.fn] at h0
  obtain ⟨h01, h2⟩ := IntOp.andi_eq_one.mp h0
  obtain ⟨ha, hb⟩ := IntOp.andi_eq_one.mp h01
  refine ⟨fun i => ?_, fun i => ?_, fun i => ?_⟩
  · exact finite_of_abs_lt _ (Host.reduce_andi_all _ _ _ _ _ ha i)
  · exact finite_of_abs_lt _ (Host.reduce_andi_all _ _ _ _ _ hb i)
  · have e := Host.reduce_andi_all _ _ _ _ _ h2 i
    rcases IntOp.ori_eq_one.mp e with e0 | e1
    · exact Or.inl (StableHlo.Predicate.cmpi_eq_iff.mp e0)
    · exact Or.inr (StableHlo.Predicate.cmpi_eq_iff.mp e1)

end Cert.Pre_finite_inputs.Decode

end
-- ==== Proof.lean ====
/-
  The concordance statistic: a one-pass kernel against a two-pass reference, equal on the extended reals.

  Both programs take `y_true`, `y_pred : f32[256, 65536]` and a mask `: i32[256, 65536]`, and return the mean over the 256 rows
  of `2·cov / (var_t + var_p + (μt − μp)·2)`, the masked means, variances and covariance of each row taken over `L − 1` with
  `L` the row's mask count. The reference centers first: `var_t = Σ ((y_true − μt)·m)² / (L − 1)`. The kernel streams each row
  once in four tiles of 16384 lanes, accumulating `Σ m`, `Σ y·m`, `Σ y²·m` and `Σ y_true·y_pred·m` in a scratch it zeroes at the
  first tile and writes out at the last, and forms `var_t = (Σ y_true²·m − L·μt·μt) / (L − 1)` on the host.
  Under the precondition — finite samples, and every mask word 0 or 1 — the two agree exactly on the extended reals:
  where `L ≠ 0` by the textbook identity (using `m² = m`), and where `L = 0` because every term then carries a factor `0`
  (`Proof/MaskedMoments.lean`). A mask word outside {0, 1} breaks `m² = m` and with it the claim; that is why the
  precondition names the mask's range.

  The modules: `MaskedMoments` (the identity), `LibColumnStores`, `LibKeepdims`, `LibSumSplit` (general layout and
  summation lemmas), `ScratchUpdate` (what one grid point does to the scratch), `RowStats` (the array the region leaves),
  `KernelTail` and `KernelResult` (the host lines after the region and the kernel's run), `ReferenceStats` (the
  reference's row vectors), `Epilogue` (the part both programs share), `PreDecode` (the precondition read back),
  `Bridge` (the row vectors agree). The frames of the two kernel programs and the reference's run are generated.
-/
import proofs.«119938_j47562467836084_1_alg».proof.Defs
import proofs.«119938_j47562467836084_1_alg».proof.Proof.Gen.Kernel
import proofs.«119938_j47562467836084_1_alg».proof.Proof.Gen.Kernel.Skeleton
import proofs.«119938_j47562467836084_1_alg».proof.Proof.Gen.Kernel.Launch
import proofs.«119938_j47562467836084_1_alg».proof.Proof.Gen.Kernel.Points
import proofs.«119938_j47562467836084_1_alg».proof.Proof.Gen.Kernel.Frame
import proofs.«119938_j47562467836084_1_alg».proof.Proof.Gen.KernelIdeal
import proofs.«119938_j47562467836084_1_alg».proof.Proof.Gen.KernelIdeal.Skeleton
import proofs.«119938_j47562467836084_1_alg».proof.Proof.Gen.KernelIdeal.Launch
import proofs.«119938_j47562467836084_1_alg».proof.Proof.Gen.KernelIdeal.Points
import proofs.«119938_j47562467836084_1_alg».proof.Proof.Gen.KernelIdeal.Frame
import proofs.«119938_j47562467836084_1_alg».proof.Proof.Gen.ReferenceIdeal
import proofs.«119938_j47562467836084_1_alg».proof.Proof.Gen.ReferenceIdeal.Run
import proofs.«119938_j47562467836084_1_alg».proof.Proof.Gen.ReferenceIdeal.Read
import proofs.«119938_j47562467836084_1_alg».proof.Proof.Gen.Pre_finite_inputs
import proofs.«119938_j47562467836084_1_alg».proof.Proof.KernelResult
import proofs.«119938_j47562467836084_1_alg».proof.Proof.Bridge
import proofs.«119938_j47562467836084_1_alg».proof.Proof.PreDecode
import Idealize.ShloMosaic.Adequacy
import Idealize.ShloMosaic.Init

noncomputable section

namespace Cert.Proof

open Idealize.ShloMosaic Idealize.SL.Sem

/-- The word-level kernel runs, faults nowhere and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both programs end at one value: the host tail of
    the statistics array of the arguments, which is the reference's result. -/
theorem algebraic : Cert.algebraic_KernelIdeal_ReferenceIdeal := by
  intro m ρ m' ρ' hpre hagree
  refine ⟨fun c => Cert.KernelIdeal.Moments.kernelTail (Cert.KernelIdeal.Moments.statsArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.KernelIdeal.Moments.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Pre_finite_inputs.Decode.decode _ _ _ (hpre c)
  rw [Cert.ReferenceIdeal.Read.val_main_v36_eq, (hagree c).1, (hagree c).2.1, (hagree c).2.2]
  exact (Cert.Concordance.results_agree _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
